-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x1024 : Shape := ⟨2, ![4096, 1024]⟩
abbrev S1x1024 : Shape := ⟨2, ![1, 1024]⟩
abbrev S2x1x1024 : Shape := ⟨3, ![2, 1, 1024]⟩
abbrev S_ : Shape := ⟨0, ![]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4096x1024, .f32⟩
  | .local _ .vmem, ⟨1, _⟩ => ⟨S1x1024, .f32⟩
  | .local _ .vmem, ⟨2, _⟩ => ⟨S2x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S1024 : S4096x1024.Reduces [0] S1024
  shapeCasts_S1024_S1x1024 : S1024.ShapeCasts S1x1024
  inb_S2x1x1024_S1x1x1024_0_0_0 : ∀ a, (![0, 0, 0] : Fin 3 → Nat) a + S1x1x1024.size a ≤ S2x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S2x1x1024_S1x1x1024_1_0_0 : ∀ a, (![1, 0, 0] : Fin 3 → Nat) a + S1x1x1024.size a ≤ S2x1x1024.size a
  squeezes_S1x1x1024_S1x1024 : S1x1x1024.Squeezes S1x1024
  inb_S1x1024_S1x1024_0_0 : ∀ a, (![0, 0] : Fin 2 → Nat) a + S1x1024.size a ≤ S1x1024.size a
  h_S1x1024 : 0 < S1x1024.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S2048, .f32⟩
  | .hbm, ⟨3, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x2048_S2048_d0 : S8192x2048.ReducesTo [0] S2048
  h_S_ : 0 < S_.numel
  bcast_S2048_S1x2048_1 : S2048.BroadcastsInDim S1x2048 (![1] : Fin 1 → Fin S1x2048.rank)

variable [Facts₀]

class Facts : Prop extends Facts₀ where

variable [Facts]
-- ==== Proof.KernelExchange.lean ====
import proofs.«900930_g7700000000000931_dist_max_ax0_xy_m4096_n1024_v7x_xy2x2_f32_1_alg».proof.Proof.Gen.Kernel
import proofs.«900930_g7700000000000931_dist_max_ax0_xy_m4096_n1024_v7x_xy2x2_f32_1_alg».proof.Proof.Gen.Kernel.Skeleton
import proofs.«900930_g7700000000000931_dist_max_ax0_xy_m4096_n1024_v7x_xy2x2_f32_1_alg».proof.Proof.Gen.Kernel.Launch
import Idealize.ShloMosaic.Lib.Pipeline.Launch
import Idealize.ShloMosaic.Lib.Pipeline.Kit
import Idealize.ShloMosaic.Lib.Tactic

/-!
# The exchange between the two devices of a mesh column

Device `c = (i, j)` of the 2 × 2 mesh (logical id `2 i + j`) holds the block of `x` of rows `[4096 i, 4096 i + 4096)` and
columns `[1024 j, 1024 j + 1024)`. It takes the maximum of each of its 1024 columns into slot 0 of a two-slot scratch, and
its column mate `peer c = (1 - i, j)` does the same over the other 4096 rows of the same columns. The two then swap their
slot-0 rows into each other's slot 1, and each ends with the elementwise maximum of its two slots: the maximum of each
column over all 8192 rows.

This module states the protocol of the swap: one round on each of three semaphores of a device.
* the barrier semaphore of `c` receives ONE unit, from `peer c`, which says: "I am inside the kernel; slot 1 of my scratch
  is yours to write, and I am at round 0 of my receive semaphore";
* the send semaphore of `c` is credited when slot 0 of `c` has been read whole: slot 0 comes back, still holding `c`'s column maxima;
* the receive semaphore of `c` is credited when slot 1 of `c` has been written whole: it now holds `peer c`'s column maxima.
A device waits on its barrier semaphore while it still owes its mate the copy, so the barrier sits below the receive semaphore.
-/

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the rounds algebra: the pipeline's staging cells live in the left one, the swap's three cells in the right one. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The column mate -/

/-- Device `(i, j)`'s mate in its mesh column: `(1 - i, j)`. -/
def peer (c : Dev nD) : Dev nD := ⟨(c.val % 2 + 2) - 2 * (c.val / 2), by have : c.val < 4 := c.isLt; show _ < 4; omega⟩

theorem peer_peer (c : Dev nD) : peer (peer c) = c := by revert c; decide
theorem peer_ne (c : Dev nD) : peer c ≠ c := by revert c; decide

/-- Both device chains of the body (the signal's, the copy's) compute the mate. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The mate map as a permutation of the devices. -/
def mates : Dev nD ≃ Dev nD := ⟨peer, peer, peer_peer, peer_peer⟩

/-! ## Buffers, slots and semaphores -/

abbrev xM : Memref sig .tc .vmem S4096x1024 .f32 := Memref.whole cc0_stg0_0
abbrev oM : Memref sig .tc .vmem S1x1024 .f32 := Memref.whole cc0_stg1_0
abbrev cM : Memref sig .tc .vmem S2x1x1024 .f32 := Memref.whole cc0_scratch0

/-- The two slots of the scratch as rectangles of it, -/
abbrev rc0 : Rect S2x1x1024 := Rect.unit (s := S2x1x1024) ![0, 0, 0] S1x1x1024.size inb_S2x1x1024_S1x1x1024_0_0_0
abbrev rc1 : Rect S2x1x1024 := Rect.unit (s := S2x1x1024) ![1, 0, 0] S1x1x1024.size inb_S2x1x1024_S1x1x1024_1_0_0
/-- as the views a load or a store of a slot goes through, -/
abbrev V0 : View sig .tc .vmem rc0.shape .f32 := cM.access rc0
abbrev V1 : View sig .tc .vmem rc1.shape .f32 := cM.access rc1
/-- and as the row memrefs the copy names. -/
abbrev sl0 : Memref sig .tc .vmem S1x1024 .f32 := (cM.slice rc0 (fun _ => rfl)).squeeze S1x1024 squeezes_S1x1x1024_S1x1024
abbrev sl1 : Memref sig .tc .vmem S1x1024 .f32 := (cM.slice rc1 (fun _ => rfl)).squeeze S1x1024 squeezes_S1x1x1024_S1x1024

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- the swap's three: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (sl1 : Memref sig .tc .vmem S1x1024 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) (m ((c : Thread nD τ).loc main_arg0))

/-- The maxima of the 1024 columns of device `c`'s block, as the row the body stores into slot 0. -/
def colmax (c : Dev nD) : rc0.shape.Idx → Elt F .f32 := k0_pay2 (xstg m c)

/-- Slot `k` of device `c`'s scratch, held whole at contents `f`. -/
def slot0Pts (c : Dev nD) (f : Buf (Elt F) (V0.loc (c : Thread nD τ))) : sProp 𝕄 :=
  V0.loc (c : Thread nD τ) ↦[V0.set]{fullShare} f
def slot1Pts (c : Dev nD) (f : Buf (Elt F) (V1.loc (c : Thread nD τ))) : sProp 𝕄 :=
  V1.loc (c : Thread nD τ) ↦[V1.set]{fullShare} f

omit [FloatOps F] in
instance slot0Pts_storable (c : Dev nD) (f) : BI.Storable (upEmb : UEmb _ 𝕄) (slot0Pts (F := F) c f) := by unfold slot0Pts; infer_instance
omit [FloatOps F] in
instance slot1Pts_storable (c : Dev nD) (f) : BI.Storable (upEmb : UEmb _ 𝕄) (slot1Pts (F := F) c f) := by unfold slot1Pts; infer_instance

/-! ## The schedule -/

/-- What `peer c`'s signal hands `c`: slot 1 of `peer c`'s scratch, to write, and that `peer c` is at round 0 of its receive cell. -/
def barPay (c : Dev nD) : sProp 𝕄 := iprop((∃ f, slot1Pts (peer c) f) ∗ reached ER (recvCell (peer c)) 0)
/-- What the landing of `peer c`'s row hands `c`: slot 1 of its scratch holding `peer c`'s column maxima. -/
def recvPay (c : Dev nD) : sProp 𝕄 := iprop(∃ f, ⌜V1.read (Elt F) f = colmax m (peer c)⌝ ∗ slot1Pts c f)
/-- What the departure of its own row hands `c` back: slot 0 of its scratch, still holding its own column maxima. -/
def sendPay (c : Dev nD) : sProp 𝕄 := iprop(∃ f, ⌜V0.read (Elt F) f = colmax m c⌝ ∗ slot0Pts c f)

abbrev IsSwap (g : GSem nD τ sig) : Prop := g.1.2 = .tc ∧ (g.2 = .reg barS ∨ g.2 = .dma sendS.sem ∨ g.2 = .dma recvS.sem)

/-- One round, round 0, of one duty on each of a device's three cells: a unit on the barrier cell, a row's credit on the other two. -/
def swapRd : Rounds.Schedule (GSem nD τ sig) Unit 𝕄 where
  duties g r := if r = 0 ∧ IsSwap g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance swapRd_payload_storable (g : GSem nD τ sig) (r : ℕ) (d : Unit) : BI.Storable (upEmb : UEmb _ 𝕄) ((swapRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (swapRd (F := F) m).duties (barCell c) 0 = {()} := by dsimp only [swapRd]; exact if_pos ⟨rfl, rfl, .inl rfl⟩
theorem duties_send : (swapRd (F := F) m).duties (sendCell c) 0 = {()} := by dsimp only [swapRd]; exact if_pos ⟨rfl, rfl, .inr (.inl rfl)⟩
theorem duties_recv : (swapRd (F := F) m).duties (recvCell c) 0 = {()} := by dsimp only [swapRd]; exact if_pos ⟨rfl, rfl, .inr (.inr rfl)⟩
theorem duties_later (g : GSem nD τ sig) : ∀ r, 1 ≤ r → (swapRd (F := F) m).duties g r = ∅ :=
  fun r hr => by dsimp only [swapRd]; exact if_neg fun h => by omega

theorem amount_bar (u : Unit) : (swapRd (F := F) m).amount (barCell c) 0 u = 1 := by dsimp only [swapRd]; exact if_pos rfl
theorem amount_send (u : Unit) : (swapRd (F := F) m).amount (sendCell c) 0 u = N := by dsimp only [swapRd]; exact if_neg send_ne_bar
theorem amount_recv (u : Unit) : (swapRd (F := F) m).amount (recvCell c) 0 u = N := by dsimp only [swapRd]; exact if_neg recv_ne_bar

theorem expect_bar : (swapRd (F := F) m).expect (barCell c) 0 = 1 := by
  unfold Schedule.expect Schedule.amountOf; rw [duties_bar, Finset.sum_singleton, amount_bar]
theorem expect_send : (swapRd (F := F) m).expect (sendCell c) 0 = N := by
  unfold Schedule.expect Schedule.amountOf; rw [duties_send, Finset.sum_singleton, amount_send]
theorem expect_recv : (swapRd (F := F) m).expect (recvCell c) 0 = N := by
  unfold Schedule.expect Schedule.amountOf; rw [duties_recv, Finset.sum_singleton, amount_recv]

theorem payload_bar (u : Unit) : (swapRd (F := F) m).payload (barCell c) 0 u = barPay c := by dsimp only [swapRd]; exact if_pos rfl
theorem payload_send (u : Unit) : (swapRd (F := F) m).payload (sendCell c) 0 u = sendPay m c := by
  dsimp only [swapRd]; rw [if_neg send_ne_bar, if_neg send_ne_recv, if_pos rfl]
theorem payload_recv (u : Unit) : (swapRd (F := F) m).payload (recvCell c) 0 u = recvPay m c := by
  dsimp only [swapRd]; rw [if_neg recv_ne_bar, if_pos rfl]

theorem rest_bar : bigSep ((swapRd (F := F) m).duties (barCell c) 0 \ ∅) (fun u => (swapRd (F := F) m).payload (barCell c) 0 u) = barPay c := by
  rw [Finset.sdiff_empty, duties_bar, bigSep_singleton, payload_bar]
theorem rest_send : bigSep ((swapRd (F := F) m).duties (sendCell c) 0 \ ∅) (fun u => (swapRd (F := F) m).payload (sendCell c) 0 u) = sendPay m c := by
  rw [Finset.sdiff_empty, duties_send, bigSep_singleton, payload_send]
theorem rest_recv : bigSep ((swapRd (F := F) m).duties (recvCell c) 0 \ ∅) (fun u => (swapRd (F := F) m).payload (recvCell c) 0 u) = recvPay m c := by
  rw [Finset.sdiff_empty, duties_recv, bigSep_singleton, payload_recv]

end Sched

/-! ## What each device owes at launch; the levels -/

/-- Device `c` owes its mate's receive cell one row's credit and its mate's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

omit [FloatOps F] in
/-- A wait on a staging semaphore or on the send semaphore is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its mate's receive credit only: a receive cell, above its barrier cell. -/
theorem mayWait_bar (c : Dev nD) : (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Exchange

end
-- ==== Proof.KernelBody.lean ====
import proofs.«900930_g7700000000000931_dist_max_ax0_xy_m4096_n1024_v7x_xy2x2_f32_1_alg».proof.Proof.KernelExchange

/-!
# One device's body of the exchange

The body of device `c`, stepped once at a symbolic device: it tells its column mate that slot 1 of its scratch may be
written, stores its own column maxima into slot 0, waits for its mate's word, copies slot 0 into the mate's slot 1, waits
until its own row has left and the mate's has landed, and writes the elementwise maximum of the two slots.
-/

noncomputable section

namespace Cert.Kernel.Exchange

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two slots tile the scratch -/

omit [FloatOps F] in
theorem slots_disjoint : Disjoint (V0 : View sig .tc .vmem rc0.shape .f32).set (V1 : View sig .tc .vmem rc1.shape .f32).set := by
  show Disjoint ((View.whole cc0_scratch0).slice rc0).set ((View.whole cc0_scratch0).slice rc1).set
  rw [View.set_slice_whole, View.set_slice_whole]
  exact Rect.unit_disjoint 0 (Or.inl (by decide))

omit [FloatOps F] in
theorem slots_cover : (V0 : View sig .tc .vmem rc0.shape .f32).set ∪ (V1 : View sig .tc .vmem rc1.shape .f32).set = Finset.univ := by
  show ((View.whole cc0_scratch0).slice rc0).set ∪ ((View.whole cc0_scratch0).slice rc1).set = Finset.univ
  rw [View.set_slice_whole, View.set_slice_whole]
  ext i
  simp only [Finset.mem_union, Finset.mem_univ, iff_true, Rect.mem_set_unit]
  have h0 : (i 0).val < 2 := (i 0).isLt
  have h1 : (i 1).val < 1 := (i 1).isLt
  have h2 : (i 2).val < 1024 := (i 2).isLt
  by_cases h : (i 0).val = 0
  · left; intro a; fin_cases a
    · exact ⟨Nat.zero_le _, by show (i 0).val < 0 + 1; omega⟩
    · exact ⟨Nat.zero_le _, by show (i 1).val < 0 + 1; omega⟩
    · exact ⟨Nat.zero_le _, by show (i 2).val < 0 + 1024; omega⟩
  · right; intro a; fin_cases a
    · exact ⟨by show 1 ≤ (i 0).val; omega, by show (i 0).val < 1 + 1; omega⟩
    · exact ⟨Nat.zero_le _, by show (i 1).val < 0 + 1; omega⟩
    · exact ⟨Nat.zero_le _, by show (i 2).val < 0 + 1024; omega⟩

omit [FloatOps F] in
theorem univ_sdiff_slot1 : Finset.univ \ (V1 : View sig .tc .vmem rc1.shape .f32).set = (V0 : View sig .tc .vmem rc0.shape .f32).set := by
  rw [← slots_cover, Finset.union_sdiff_right]
  exact Finset.sdiff_eq_self_of_disjoint slots_disjoint

/-- The scratch held whole is its two slots held apart, and back. -/
theorem scr_split (c : Dev nD) (f : Buf (Elt F) ((c : Thread nD τ).loc cc0_scratch0)) :
    (((c : Thread nD τ).loc cc0_scratch0) ↦{fullShare} f : sProp 𝕄) ⊢ iprop(slot1Pts c f ∗ slot0Pts c f) := by
  unfold slot1Pts slot0Pts
  rw [← univ_sdiff_slot1]
  exact (BI.Region.is_split_subset (Finset.subset_univ _)).1

theorem scr_join (c : Dev nD) (f g : Buf (Elt F) ((c : Thread nD τ).loc cc0_scratch0)) :
    iprop(slot0Pts c f ∗ slot1Pts c g) ⊢ (iprop(∃ h, ((c : Thread nD τ).loc cc0_scratch0) ↦{fullShare} h) : sProp 𝕄) := by
  unfold slot1Pts slot0Pts
  have h : iprop((V0.loc (c : Thread nD τ) ↦[V0.set]{fullShare} f) ∗ (V1.loc (c : Thread nD τ) ↦[V1.set]{fullShare} g))
      ⊢ (V0.loc (c : Thread nD τ) ↦[V0.set ∪ V1.set]{fullShare} ((V1 : View sig .tc .vmem rc1.shape .f32).set.piecewise g f) : sProp 𝕄) :=
    BI.Region.is_join slots_disjoint
  rw [slots_cover] at h
  refine h.trans ?_
  iintro H; iexists _; iexact H

omit [FloatOps F] in
/-- A slot of the scratch is the row memref the copy names, and a whole buffer its whole memref: the same assertion, spelt through the memref's view. -/
theorem slot1_as_row (c : Dev nD) (f : Buf (Elt F) (V1.loc (c : Thread nD τ))) :
    slot1Pts c f ⊢ ((sl1 : Memref sig .tc .vmem S1x1024 .f32).view.loc (c : Thread nD τ) ↦[(sl1 : Memref sig .tc .vmem S1x1024 .f32).view.set]{fullShare} f : sProp 𝕄) := Entails.of_eq rfl
omit [FloatOps F] in
theorem slot0_as_row (c : Dev nD) (f : Buf (Elt F) (V0.loc (c : Thread nD τ))) :
    slot0Pts c f ⊢ ((sl0 : Memref sig .tc .vmem S1x1024 .f32).view.loc (c : Thread nD τ) ↦[(sl0 : Memref sig .tc .vmem S1x1024 .f32).view.set]{fullShare} f : sProp 𝕄) := Entails.of_eq rfl
omit [FloatOps F] in
theorem row_as_slot1 (c : Dev nD) (f : Buf (Elt F) (V1.loc (c : Thread nD τ))) :
    ((sl1 : Memref sig .tc .vmem S1x1024 .f32).view.loc (c : Thread nD τ) ↦[(sl1 : Memref sig .tc .vmem S1x1024 .f32).view.set]{fullShare} f : sProp 𝕄) ⊢ slot1Pts c f := Entails.of_eq rfl
omit [FloatOps F] in
theorem row_as_slot0 (c : Dev nD) (f : Buf (Elt F) (V0.loc (c : Thread nD τ))) :
    ((sl0 : Memref sig .tc .vmem S1x1024 .f32).view.loc (c : Thread nD τ) ↦[(sl0 : Memref sig .tc .vmem S1x1024 .f32).view.set]{fullShare} f : sProp 𝕄) ⊢ slot0Pts c f := Entails.of_eq rfl
omit [FloatOps F] in
theorem whole_as_view (c : Dev nD) (b : Ref sig .tc) (f : Buf (Elt F) ((c : Thread nD τ).loc b)) :
    (((c : Thread nD τ).loc b) ↦{fullShare} f : sProp 𝕄) ⊢ ((Memref.whole b : Memref sig .tc _ _ _).view.loc (c : Thread nD τ) ↦[Finset.univ]{fullShare} f) := Entails.of_eq rfl

omit [FloatOps F] in
theorem wholeview_as_view (c : Dev nD) (b : Ref sig .tc) (f : Buf (Elt F) ((c : Thread nD τ).loc b)) :
    (View.loc (c : Thread nD τ) (View.whole b) ↦[Finset.univ]{fullShare} f : sProp 𝕄) ⊢ ((Memref.whole b : Memref sig .tc _ _ _).view.loc (c : Thread nD τ) ↦[Finset.univ]{fullShare} f) := Entails.of_eq rfl
omit [FloatOps F] in
theorem view_as_whole (c : Dev nD) (b : Ref sig .tc) (f : Buf (Elt F) ((c : Thread nD τ).loc b)) :
    ((Memref.whole b : Memref sig .tc _ _ _).view.loc (c : Thread nD τ) ↦[Finset.univ]{fullShare} f : sProp 𝕄) ⊢ (((c : Thread nD τ).loc b) ↦{fullShare} f) := Entails.of_eq rfl

/-! ## What a copied row reads as -/

omit [FloatOps F] in
/-- Slot 1 after the row copy from a slot 0 reads what that slot 0 read. -/
theorem landed_read (c c' : Dev nD) (fd : Buf (Elt F) ((sl1 : Memref sig .tc .vmem S1x1024 .f32).view.loc (c' : Thread nD τ)))
    (fs : Buf (Elt F) ((sl0 : Memref sig .tc .vmem S1x1024 .f32).view.loc (c : Thread nD τ))) :
    V1.read (Elt F) ((sl1 : Memref sig .tc .vmem S1x1024 .f32).view.write (Elt F) fd ((sl0 : Memref sig .tc .vmem S1x1024 .f32).view.read (Elt F) fs) Finset.univ)
      = V0.read (Elt F) fs := by
  show V1.read (Elt F) ((V1.reshape S1x1024 _).write (Elt F) fd ((V0.reshape S1x1024 _).read (Elt F) fs) Finset.univ) = V0.read (Elt F) fs
  rw [View.write_reshape_univ, View.read_write_univ]
  funext x
  simp [View.read_apply]

/-! ## What the hand-overs of the swap say -/

omit [FloatOps F] in
theorem hz2 : (![0, 0] : Fin 2 → Nat) = fun _ => 0 := funext fun a => by fin_cases a <;> rfl

omit [FloatOps F] in
theorem read_x (f : (cc0_stg0_0 : Ref sig .tc).ty.Contents (Elt F)) :
    (xM : Memref sig .tc .vmem S4096x1024 .f32).view.readAt (Elt F) (Rect.unit (s := S4096x1024) ![0, 0] S4096x1024.size inb_S4096x1024_S4096x1024_0_0).toLoadRect f = f :=
  Memref.readAt_unit_zero (Elt F) cc0_stg0_0 hz2 _ f

/-- Slot 0 after the body's store reads the device's column maxima, whatever the scratch held. -/
theorem stored_read (c : Dev nD) (f0 : Buf (Elt F) (V0.loc (c : Thread nD τ))) :
    V0.read (Elt F) (V0.write (Elt F) f0 (k0_pay2 ((xM : Memref sig .tc .vmem S4096x1024 .f32).view.readAt (Elt F)
      (Rect.unit (s := S4096x1024) ![0, 0] S4096x1024.size inb_S4096x1024_S4096x1024_0_0).toLoadRect (xstg m c))) Finset.univ) = colmax m c := by
  rw [View.read_write_univ, read_x]; rfl

/-- The row a device sends is, on its departure, what its send cell's duty hands back: slot 0 holding the device's column maxima; -/
theorem send_pays (c : Dev nD) (fs : Buf (Elt F) (V0.loc (c : Thread nD τ))) (h : V0.read (Elt F) fs = colmax m c) :
    ((sl0 : Memref sig .tc .vmem S1x1024 .f32).view.loc (c : Thread nD τ) ↦[(sl0 : Memref sig .tc .vmem S1x1024 .f32).view.set]{fullShare} fs : sProp 𝕄)
      ⊢ (swapRd (F := F) m).payload (sendCell c) 0 () := by
  rw [payload_send]; unfold sendPay
  iintro H
  iexists fs
  isplitr; · ipureintro; exact h
  iapply (row_as_slot0 c fs); iexact H

/-- and, on its landing, what the mate's receive cell's duty hands the mate: the mate's slot 1 holding those maxima. -/
theorem land_pays (c : Dev nD) (fs : Buf (Elt F) (V0.loc (c : Thread nD τ))) (fd : Buf (Elt F) (V1.loc (peer c : Thread nD τ)))
    (h : V0.read (Elt F) fs = colmax m c) :
    ((sl1 : Memref sig .tc .vmem S1x1024 .f32).view.loc (peer c : Thread nD τ) ↦[(sl1 : Memref sig .tc .vmem S1x1024 .f32).view.set]{fullShare}
        ((sl1 : Memref sig .tc .vmem S1x1024 .f32).view.write (Elt F) fd ((sl0 : Memref sig .tc .vmem S1x1024 .f32).view.read (Elt F) fs) Finset.univ) : sProp 𝕄)
      ⊢ (swapRd (F := F) m).payload (recvCell (peer c)) 0 () := by
  rw [payload_recv]; unfold recvPay
  iintro H
  iexists _
  isplitr; · ipureintro; rw [landed_read c (peer c) fd fs, peer_peer]; exact h
  iapply (row_as_slot1 (peer c) _); iexact H

omit [FloatOps F] in
/-- The result's staging buffer written whole holds what was written. -/
theorem out_written (g w : (cc0_stg1_0 : Ref sig .tc).ty.Contents (Elt F)) :
    (oM : Memref sig .tc .vmem S1x1024 .f32).view.writes (Elt F) g
      [⟨Rect.unit (s := S1x1024) ![0, 0] S1x1024.size inb_S1x1024_S1x1024_0_0, w⟩] = w := by
  rw [View.writes_singleton]
  exact Memref.write_access_unit_zero_univ (Elt F) cc0_stg1_0 hz2 _ g w

/-! ## The proof data of the one-point pipeline -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- The kernel's result on device `c`: the elementwise maximum of its own column maxima and its mate's. -/
def outAt (c : Dev nD) : (cc0_stg1_0 : Ref sig .tc).ty.Contents (Elt F) := k0_pay1 (colmax m c) (colmax m (peer c))

/-- The cells' invariants device `c`'s body opens, under the names `K` the launch allocated them at: its own three, its
    mate's barrier cell (its signal) and its mate's receive cell (its copy). -/
def invs (K : Dev nD × Fin 3 → ℕ) (c : Dev nD) : sProp 𝕄 :=
  iprop(cellInv ER (swapRd m) (K (c, 0)) (barCell c) ∗ cellInv ER (swapRd m) (K (c, 1)) (sendCell c) ∗ cellInv ER (swapRd m) (K (c, 2)) (recvCell c)
    ∗ cellInv ER (swapRd m) (K (peer c, 0)) (barCell (peer c)) ∗ cellInv ER (swapRd m) (K (peer c, 2)) (recvCell (peer c)))

instance invs_persistent (K : Dev nD × Fin 3 → ℕ) (c : Dev nD) : BI.Persistent (invs m K c) := by unfold invs; infer_instance

/-- The tokens of the duties device `c` pays: its mate's barrier unit, its mate's landing, its own departure. -/
def payToks (c : Dev nD) : sProp 𝕄 := iprop(dutyTok ER (barCell (peer c)) 0 () ∗ dutyTok ER (recvCell (peer c)) 0 () ∗ dutyTok ER (sendCell c) 0 ())

/-- The swap's ghost state device `c` starts from. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device `c`'s body starts from beside its scratch: the ghost state at some names, the credit for the unit and
    the row others owe it, and the level facts. -/
def start (c : Dev nD) : sProp 𝕄 := iprop((∃ K, ghost m K c) ∗ cred (tallyAt (barCell c) () 1) ∗ cred (tallyAt (recvCell c) () N) ∗ levAts L lv)

def wholeScr (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ wholeScr c)
/-- After the point: the scratch whole again, the two own cells closed at zero. -/
def Φ₁ (c : Dev nD) : sProp 𝕄 := iprop(wholeScr c ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ wholeScr c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The payload tables with the points-to spelt out, the mate's mate resolved. -/
theorem payload_bar_mate (c : Dev nD) (u : Unit) : (swapRd (F := F) m).payload (barCell (peer c)) 0 u
    = iprop((∃ f, ((sl1 : Memref sig .tc .vmem S1x1024 .f32).view.loc (c : Thread nD τ) ↦[(sl1 : Memref sig .tc .vmem S1x1024 .f32).view.set]{fullShare} f)) ∗ reached ER (recvCell c) 0) := by
  rw [payload_bar]; unfold barPay slot1Pts; rw [peer_peer]; rfl
theorem payload_bar_own (c : Dev nD) (u : Unit) : (swapRd (F := F) m).payload (barCell c) 0 u
    = iprop((∃ f, ((sl1 : Memref sig .tc .vmem S1x1024 .f32).view.loc (peer c : Thread nD τ) ↦[(sl1 : Memref sig .tc .vmem S1x1024 .f32).view.set]{fullShare} f)) ∗ reached ER (recvCell (peer c)) 0) := by
  rw [payload_bar]; unfold barPay slot1Pts; rfl
theorem payload_send_own (c : Dev nD) (u : Unit) : (swapRd (F := F) m).payload (sendCell c) 0 u
    = iprop(∃ f, ⌜V0.read (Elt F) f = colmax m c⌝ ∗ ((sl0 : Memref sig .tc .vmem S1x1024 .f32).view.loc (c : Thread nD τ) ↦[(sl0 : Memref sig .tc .vmem S1x1024 .f32).view.set]{fullShare} f)) := by
  rw [payload_send]; unfold sendPay slot0Pts; rfl
theorem payload_recv_own (c : Dev nD) (u : Unit) : (swapRd (F := F) m).payload (recvCell c) 0 u
    = iprop(∃ f, ⌜V1.read (Elt F) f = colmax m (peer c)⌝ ∗ ((sl1 : Memref sig .tc .vmem S1x1024 .f32).view.loc (c : Thread nD τ) ↦[(sl1 : Memref sig .tc .vmem S1x1024 .f32).view.set]{fullShare} f)) := by
  rw [payload_recv]; unfold recvPay slot1Pts; rfl
theorem payload_recv_mate (c : Dev nD) (u : Unit) : (swapRd (F := F) m).payload (recvCell (peer c)) 0 u
    = iprop(∃ f, ⌜V1.read (Elt F) f = colmax m c⌝ ∗ ((sl1 : Memref sig .tc .vmem S1x1024 .f32).view.loc (peer c : Thread nD τ) ↦[(sl1 : Memref sig .tc .vmem S1x1024 .f32).view.set]{fullShare} f)) := by
  rw [payload_recv]; unfold recvPay slot1Pts; rw [peer_peer]; rfl

attribute [local sl_rounds] duties_bar duties_send duties_recv amount_bar amount_send amount_recv expect_bar expect_send expect_recv
  payload_bar_own payload_send_own payload_recv_own
attribute [local sl_rounds high] payload_recv_mate payload_bar_mate
attribute [local sl_canon] dev1_eq dev2_eq

set_option maxHeartbeats 800000 in
/-- The body, symbolically executed from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  unfold bodyPre ghost invs payToks wholeScr
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  -- the scratch cut into its two slots
  ihave Hsp := (scr_split c f0) $$ Hscr
  icases Hsp with ⟨Hs1, Hs0⟩
  -- every buffer spelt through the memref the body names it by
  ihave Hs1 := (slot1_as_row c f0) $$ Hs1
  ihave Hs0 := (slot0_as_row c f0) $$ Hs0
  ihave Hx := (whole_as_view c cc0_stg0_0 (xstg m c)) $$ Hx
  ihave Hout := (whole_as_view c cc0_stg1_0 g1) $$ Hout
  have hmw : (levAts L lv : sProp 𝕄) ⊢ MayWait (c : Thread nD τ) (.reg barS) () (tallyAt (recvCell (peer c)) () N) := mayWait_bar c
  sl_exec (disch := simp only [dev1_eq, dev2_eq])
  sl_unfold_words
  -- the row copy to the mate: slot 0 leaves holding the column maxima, the mate's slot 1 lands holding them
  iapply (Rounds.wp_send_pointsTo 𝒱₀ ER (swapRd m) (c : Thread nD τ) none (c' := (peer c : Thread nD τ))
      (src := sl0) (dst := sl1) (q := fullShare) (fd := HatB_pay1_v)
      (κ₁ := K (c, 1)) (κ₂ := K (peer c, 2)) (r₁ := 0) (r₂ := 0) (d₁ := ()) (d₂ := ())
      (by rw [duties_send]; exact Finset.mem_singleton_self _) (by rw [duties_recv]; exact Finset.mem_singleton_self _)
      () () N rfl (amount_send m c ()) (amount_recv m (peer c) ()) 0 (by rw [zero_add])
      (send_pays m c _ (stored_read m c f0)) (land_pays m c _ HatB_pay1_v (stored_read m c f0))) $$ [Hs0 HatB_pay1 HO HtS HtVP]
  · isplitr; · iexact HIsnd
    isplitr; · iexact HIrcvP
    isplitl [Hs0]; · iexact Hs0
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  simp only [Prog.lift, Prog.bind_op, Prog.bind_ret, Prog.pure_eq_ret]
  -- the wait on the send cell: slot 0 back, holding the column maxima
  iapply (Rounds.wp_wait_rest_token 𝒱₀ ER (swapRd m) (c : Thread nD τ) none (κ := K (c, 1))
      (wpE_waitDma2_eq 𝒱₀ (c : Thread nD τ) none Set.univ) (Set.mem_univ _) () (O := 0) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp0 := (Entails.of_eq (rest_send m c)) $$ Hpay
  unfold sendPay
  icases Hp0 with ⟨%fa, %hfa, Hs0⟩
  -- the wait on the receive cell: slot 1, holding the mate's column maxima
  iapply (Rounds.wp_wait_rest_token 𝒱₀ ER (swapRd m) (c : Thread nD τ) none (κ := K (c, 2))
      (wpE_waitDma2_eq 𝒱₀ (c : Thread nD τ) none Set.univ) (Set.mem_univ _) () (O := 0) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp1 := (Entails.of_eq (rest_recv m c)) $$ Hpay
  unfold recvPay
  icases Hp1 with ⟨%fb, %hfb, Hs1⟩
  -- the two own cells close: their counters at zero are the device's again
  imod (Rounds.cell_close ER (swapRd m) (Set.mem_univ (K (c, 1))) (fun h => h) (R := 0 + 1) (duties_later m (sendCell c))) $$ [HatS] with HzS
  · isplitr; · iexact HIsnd
    iexact HatS
  imod (Rounds.cell_close ER (swapRd m) (Set.mem_univ (K (c, 2))) (fun h => h) (R := 0 + 1) (duties_later m (recvCell c))) $$ [HatV] with HzV
  · isplitr; · iexact HIrcv
    iexact HatV
  -- the two slots read, their maximum stored
  ihave Hs0 := (slot0_as_row c fa) $$ Hs0
  ihave Hs1 := (slot1_as_row c fb) $$ Hs1
  ihave Hx := (wholeview_as_view c cc0_stg0_0 (xstg m c)) $$ Hx
  ihave Hout := (wholeview_as_view c cc0_stg1_0 g1) $$ Hout
  sl_exec
  sl_unfold_words
  rw [out_written, wp_ret]; imodintro
  iapply Hk
  unfold bodyPost Φ₁ Dat.owesAt Pipeline.owesWithin
  rw [show (dats m 0 c).owed t₀.succ = 0 from rfl]
  ihave Hs0 := (row_as_slot0 c fa) $$ Hs0
  ihave Hs1 := (row_as_slot1 c fb) $$ Hs1
  ihave Hscr := (scr_join c fa fb) $$ [Hs0 Hs1]
  · isplitl [Hs0] <;> iassumption
  ihave Hx := (view_as_whole c cc0_stg0_0 (xstg m c)) $$ Hx
  ihave Hout := (view_as_whole c cc0_stg1_0 _) $$ Hout
  isplitl [Hscr HzS HzV]
  · isplitl [Hscr]; · unfold wholeScr; iexact Hscr
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

end Cert.Kernel.Exchange

end
-- ==== Proof.KernelLaunch.lean ====
import proofs.«900930_g7700000000000931_dist_max_ax0_xy_m4096_n1024_v7x_xy2x2_f32_1_alg».proof.Proof.KernelBody

/-!
# The launch of the exchange on the four devices

Every device's body being proved, the launch theorem turns the four bodies into a run of the program: each device's
barrier cell (the runtime's semaphore, not scoped to the kernel) and its two own cells are allocated for all devices at once,
the tokens of a device's cells are dealt to the device that pays them (its column mate, or itself for the departure),
and the units and the row a device is owed at launch are what its mate owes it.
The run's post names every device's two arrays at the end: `x` unchanged, the result the elementwise maximum of the
device's and its mate's column maxima.
-/

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def swapCells : Finset (GSem nD τ sig) := Finset.univ.map ⟨kcell, kcell_injective⟩

/-- A device's own cells' duty tokens as minted: one per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def swapToks : Finset (GSem nD τ sig × ℕ × Unit) := Finset.univ.map ⟨tokOf, tokOf_injective⟩

def u₀ : UU :=
  (initOf (Pipeline.cells cfgs cellOf_inj) (Pipeline.launchToks cfgs cellOf_inj), initOf swapCells swapToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (swapRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_swap : BI.own (ER (initOf swapCells swapToks)) ⊢ (|==> bigSep Finset.univ (G m) : sProp 𝕄) := by
  have hX (Φ : GSem nD τ sig → sProp 𝕄) : bigSep swapCells Φ = bigSep Finset.univ fun c : Dev nD => bigSep Finset.univ fun k : Fin 3 => Φ (kcell (c, k)) := by
    unfold swapCells; rw [bigSep_map, bigSep_univ_prod]; rfl
  have hT : bigSep swapToks (fun x => (dutyTok ER x.1 x.2.1 x.2.2 : sProp 𝕄)) = bigSep Finset.univ fun c : Dev nD => toks c := by
    unfold swapToks; rw [bigSep_map, bigSep_univ_prod]
    exact bigSep_congr fun c _ => by unfold toks; rw [bigSep_fin3]; rfl
  iintro HX
  imod (Rounds.fund ER (swapRd m) swapCells swapToks) $$ HX with ⟨Hst, Hr, Hat, Htok⟩
  imodintro
  ihave Hst' := (Entails.of_eq (hX fun g => roundState ER (swapRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (swapRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (swapRd m) (kcell (c, k)) 0)
      ⊢ (|={Set.univ}=> bigSep Finset.univ fun k => iprop(∃ κ : ℕ, cellInv ER (swapRd m) κ (kcell (c, k))) : sProp 𝕄) from by
        rw [← bigSep_sep']
        exact (bigSep_mono fun k _ => (Rounds.body_intro ER (swapRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (swapRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (swapRd m) (K ck) (kcell ck) : sProp 𝕄)) ⊢ cellInv ER (swapRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs payToks
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each mesh column: a barrier's and a receive cell's token go to the mate, the send cell's stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv mates (fun c : Dev nD => (dutyTok ER (barCell c) 0 () : sProp 𝕄)),
    bigSep_univ_equiv mates (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (swapRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (swapRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (swapRd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s mate. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ wholeScr
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ wholeScr
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, from any memory with zero counters: every weakly fair execution of the program —
    the two devices of each mesh column handshaking on the barrier semaphore, then swapping their rows — terminates,
    and every final state has each device's arrays at the computed contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_swap m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Exchange.run_main' depends on axioms: [propext, Classical.choice, Quot.sound] -/
#guard_msgs in #print axioms run_main

end Cert.Kernel.Exchange

end
-- ==== Proof.KernelResult.lean ====
import proofs.«900930_g7700000000000931_dist_max_ax0_xy_m4096_n1024_v7x_xy2x2_f32_1_alg».proof.Proof.KernelLaunch
import Idealize.ShloMosaic.Lib.Pipeline.Value

/-!
# The arrays at the end of the exchange

The launch's run names each device's two arrays at the end through the pipeline's write-backs. Read out: `x` is never
written, and the result array, written back whole at the one grid point, holds the elementwise maximum of the device's
column maxima and its mate's.
-/

noncomputable section

namespace Cert.Kernel.Exchange

open Cert.Kernel Cert.Kernel.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

omit [FloatOps F] in
/-- The argument window's one block starts at the array's origin, -/
theorem origin_x : (fun a => win0_0.index t₀ a * main_arg0.ty.shape.size a) = fun _ => 0 := funext fun a => by fin_cases a <;> decide

/-- so the argument's staging buffer holds the device's whole block of the argument. -/
theorem xstg_eq (c : Dev nD) : xstg m c = m ((c : Thread nD τ).loc main_arg0) :=
  Memref.read_access_unit_zero (Elt F) main_arg0 origin_x (fun a => by rw [congrFun origin_x a]; simp) _

/-- The argument array is an input of the pipeline: it ends as it began. -/
theorem final_x (c : Dev nD) : finalA m c (0 : Fin 2) = m ((c : Thread nD τ).loc main_arg0) :=
  (dats (F := F) m 0 c).arrAt_in (0 : Fin 2) rfl _

omit [FloatOps F] in
/-- The result window's one block starts at the array's origin. -/
theorem origin : (fun a => win0_1.index t₀ a * main_v1.ty.shape.size a) = fun _ => 0 := funext fun a => by fin_cases a <;> decide

/-- The result array is written back whole at the one point: it ends holding what the body left in its staging buffer. -/
theorem final_out (c : Dev nD) : finalA m c (1 : Fin 2) = outAt m c := by
  unfold finalA
  refine (dats m 0 c).arrAt_eq_of_cover (1 : Fin 2) (outAt m c) (fun t _ => ?_) (fun i => ⟨t₀, rfl, ?_⟩)
  · rw [fin_N t]
    show (cfg0.win 1).cut (grid0.coords t₀) ((dats m 0 c).after 1 t₀) = _
    exact (Memref.read_access_unit_zero (Elt F) main_v1 origin (fun a => by rw [congrFun origin a]; simp) (outAt m c)).symm
  · show i ∈ ((View.whole main_v1).slice (win0_1.rect t₀)).set
    rw [View.set_slice_whole]
    exact View.mem_set_unit_zero origin _ i

/-- The run with every array named: on each device the result is the elementwise maximum of the two devices' column
    maxima, and the argument is unchanged. -/
theorem run_vals : θ_run defs (onTc (τ := τ) (main (F := F))) ⟨m, fun _ => 0, ρ⟩ fun r => ∀ c : Dev nD,
      r.2.mem ((c : Thread nD τ).loc main_v1) = outAt m c
      ∧ r.2.mem ((c : Thread nD τ).loc main_arg0) = m ((c : Thread nD τ).loc main_arg0) :=
  (θ_run defs _ _).mono (fun _ h c => ⟨(h c (1 : Fin 2)).trans (final_out m c), (h c (0 : Fin 2)).trans (final_x m c)⟩)
    (run_main m ρ)

end Cert.Kernel.Exchange

end
-- ==== Proof.KernelIdealExchange.lean ====
import proofs.«900930_g7700000000000931_dist_max_ax0_xy_m4096_n1024_v7x_xy2x2_f32_1_alg».proof.Proof.Gen.KernelIdeal
import proofs.«900930_g7700000000000931_dist_max_ax0_xy_m4096_n1024_v7x_xy2x2_f32_1_alg».proof.Proof.Gen.KernelIdeal.Skeleton
import proofs.«900930_g7700000000000931_dist_max_ax0_xy_m4096_n1024_v7x_xy2x2_f32_1_alg».proof.Proof.Gen.KernelIdeal.Launch
import Idealize.ShloMosaic.Lib.Pipeline.Launch
import Idealize.ShloMosaic.Lib.Pipeline.Kit
import Idealize.ShloMosaic.Lib.Tactic

/-!
# The exchange between the two devices of a mesh column

Device `c = (i, j)` of the 2 × 2 mesh (logical id `2 i + j`) holds the block of `x` of rows `[4096 i, 4096 i + 4096)` and
columns `[1024 j, 1024 j + 1024)`. It takes the maximum of each of its 1024 columns into slot 0 of a two-slot scratch, and
its column mate `peer c = (1 - i, j)` does the same over the other 4096 rows of the same columns. The two then swap their
slot-0 rows into each other's slot 1, and each ends with the elementwise maximum of its two slots: the maximum of each
column over all 8192 rows.

This module states the protocol of the swap: one round on each of three semaphores of a device.
* the barrier semaphore of `c` receives ONE unit, from `peer c`, which says: "I am inside the kernel; slot 1 of my scratch
  is yours to write, and I am at round 0 of my receive semaphore";
* the send semaphore of `c` is credited when slot 0 of `c` has been read whole: slot 0 comes back, still holding `c`'s column maxima;
* the receive semaphore of `c` is credited when slot 1 of `c` has been written whole: it now holds `peer c`'s column maxima.
A device waits on its barrier semaphore while it still owes its mate the copy, so the barrier sits below the receive semaphore.
-/

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the rounds algebra: the pipeline's staging cells live in the left one, the swap's three cells in the right one. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The column mate -/

/-- Device `(i, j)`'s mate in its mesh column: `(1 - i, j)`. -/
def peer (c : Dev nD) : Dev nD := ⟨(c.val % 2 + 2) - 2 * (c.val / 2), by have : c.val < 4 := c.isLt; show _ < 4; omega⟩

theorem peer_peer (c : Dev nD) : peer (peer c) = c := by revert c; decide
theorem peer_ne (c : Dev nD) : peer c ≠ c := by revert c; decide

/-- Both device chains of the body (the signal's, the copy's) compute the mate. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The mate map as a permutation of the devices. -/
def mates : Dev nD ≃ Dev nD := ⟨peer, peer, peer_peer, peer_peer⟩

/-! ## Buffers, slots and semaphores -/

abbrev xM : Memref sig .tc .vmem S4096x1024 .f32 := Memref.whole cc0_stg0_0
abbrev oM : Memref sig .tc .vmem S1x1024 .f32 := Memref.whole cc0_stg1_0
abbrev cM : Memref sig .tc .vmem S2x1x1024 .f32 := Memref.whole cc0_scratch0

/-- The two slots of the scratch as rectangles of it, -/
abbrev rc0 : Rect S2x1x1024 := Rect.unit (s := S2x1x1024) ![0, 0, 0] S1x1x1024.size inb_S2x1x1024_S1x1x1024_0_0_0
abbrev rc1 : Rect S2x1x1024 := Rect.unit (s := S2x1x1024) ![1, 0, 0] S1x1x1024.size inb_S2x1x1024_S1x1x1024_1_0_0
/-- as the views a load or a store of a slot goes through, -/
abbrev V0 : View sig .tc .vmem rc0.shape .f32 := cM.access rc0
abbrev V1 : View sig .tc .vmem rc1.shape .f32 := cM.access rc1
/-- and as the row memrefs the copy names. -/
abbrev sl0 : Memref sig .tc .vmem S1x1024 .f32 := (cM.slice rc0 (fun _ => rfl)).squeeze S1x1024 squeezes_S1x1x1024_S1x1024
abbrev sl1 : Memref sig .tc .vmem S1x1024 .f32 := (cM.slice rc1 (fun _ => rfl)).squeeze S1x1024 squeezes_S1x1x1024_S1x1024

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- the swap's three: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of one row's copy. -/
abbrev N : ℕ := (sl1 : Memref sig .tc .vmem S1x1024 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) (m ((c : Thread nD τ).loc main_arg0))

/-- The maxima of the 1024 columns of device `c`'s block, as the row the body stores into slot 0. -/
def colmax (c : Dev nD) : rc0.shape.Idx → Elt F .f32 := k0_pay2 (xstg m c)

/-- Slot `k` of device `c`'s scratch, held whole at contents `f`. -/
def slot0Pts (c : Dev nD) (f : Buf (Elt F) (V0.loc (c : Thread nD τ))) : sProp 𝕄 :=
  V0.loc (c : Thread nD τ) ↦[V0.set]{fullShare} f
def slot1Pts (c : Dev nD) (f : Buf (Elt F) (V1.loc (c : Thread nD τ))) : sProp 𝕄 :=
  V1.loc (c : Thread nD τ) ↦[V1.set]{fullShare} f

omit [FloatOps F] in
instance slot0Pts_storable (c : Dev nD) (f) : BI.Storable (upEmb : UEmb _ 𝕄) (slot0Pts (F := F) c f) := by unfold slot0Pts; infer_instance
omit [FloatOps F] in
instance slot1Pts_storable (c : Dev nD) (f) : BI.Storable (upEmb : UEmb _ 𝕄) (slot1Pts (F := F) c f) := by unfold slot1Pts; infer_instance

/-! ## The schedule -/

/-- What `peer c`'s signal hands `c`: slot 1 of `peer c`'s scratch, to write, and that `peer c` is at round 0 of its receive cell. -/
def barPay (c : Dev nD) : sProp 𝕄 := iprop((∃ f, slot1Pts (peer c) f) ∗ reached ER (recvCell (peer c)) 0)
/-- What the landing of `peer c`'s row hands `c`: slot 1 of its scratch holding `peer c`'s column maxima. -/
def recvPay (c : Dev nD) : sProp 𝕄 := iprop(∃ f, ⌜V1.read (Elt F) f = colmax m (peer c)⌝ ∗ slot1Pts c f)
/-- What the departure of its own row hands `c` back: slot 0 of its scratch, still holding its own column maxima. -/
def sendPay (c : Dev nD) : sProp 𝕄 := iprop(∃ f, ⌜V0.read (Elt F) f = colmax m c⌝ ∗ slot0Pts c f)

abbrev IsSwap (g : GSem nD τ sig) : Prop := g.1.2 = .tc ∧ (g.2 = .reg barS ∨ g.2 = .dma sendS.sem ∨ g.2 = .dma recvS.sem)

/-- One round, round 0, of one duty on each of a device's three cells: a unit on the barrier cell, a row's credit on the other two. -/
def swapRd : Rounds.Schedule (GSem nD τ sig) Unit 𝕄 where
  duties g r := if r = 0 ∧ IsSwap g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance swapRd_payload_storable (g : GSem nD τ sig) (r : ℕ) (d : Unit) : BI.Storable (upEmb : UEmb _ 𝕄) ((swapRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (swapRd (F := F) m).duties (barCell c) 0 = {()} := by dsimp only [swapRd]; exact if_pos ⟨rfl, rfl, .inl rfl⟩
theorem duties_send : (swapRd (F := F) m).duties (sendCell c) 0 = {()} := by dsimp only [swapRd]; exact if_pos ⟨rfl, rfl, .inr (.inl rfl)⟩
theorem duties_recv : (swapRd (F := F) m).duties (recvCell c) 0 = {()} := by dsimp only [swapRd]; exact if_pos ⟨rfl, rfl, .inr (.inr rfl)⟩
theorem duties_later (g : GSem nD τ sig) : ∀ r, 1 ≤ r → (swapRd (F := F) m).duties g r = ∅ :=
  fun r hr => by dsimp only [swapRd]; exact if_neg fun h => by omega

theorem amount_bar (u : Unit) : (swapRd (F := F) m).amount (barCell c) 0 u = 1 := by dsimp only [swapRd]; exact if_pos rfl
theorem amount_send (u : Unit) : (swapRd (F := F) m).amount (sendCell c) 0 u = N := by dsimp only [swapRd]; exact if_neg send_ne_bar
theorem amount_recv (u : Unit) : (swapRd (F := F) m).amount (recvCell c) 0 u = N := by dsimp only [swapRd]; exact if_neg recv_ne_bar

theorem expect_bar : (swapRd (F := F) m).expect (barCell c) 0 = 1 := by
  unfold Schedule.expect Schedule.amountOf; rw [duties_bar, Finset.sum_singleton, amount_bar]
theorem expect_send : (swapRd (F := F) m).expect (sendCell c) 0 = N := by
  unfold Schedule.expect Schedule.amountOf; rw [duties_send, Finset.sum_singleton, amount_send]
theorem expect_recv : (swapRd (F := F) m).expect (recvCell c) 0 = N := by
  unfold Schedule.expect Schedule.amountOf; rw [duties_recv, Finset.sum_singleton, amount_recv]

theorem payload_bar (u : Unit) : (swapRd (F := F) m).payload (barCell c) 0 u = barPay c := by dsimp only [swapRd]; exact if_pos rfl
theorem payload_send (u : Unit) : (swapRd (F := F) m).payload (sendCell c) 0 u = sendPay m c := by
  dsimp only [swapRd]; rw [if_neg send_ne_bar, if_neg send_ne_recv, if_pos rfl]
theorem payload_recv (u : Unit) : (swapRd (F := F) m).payload (recvCell c) 0 u = recvPay m c := by
  dsimp only [swapRd]; rw [if_neg recv_ne_bar, if_pos rfl]

theorem rest_bar : bigSep ((swapRd (F := F) m).duties (barCell c) 0 \ ∅) (fun u => (swapRd (F := F) m).payload (barCell c) 0 u) = barPay c := by
  rw [Finset.sdiff_empty, duties_bar, bigSep_singleton, payload_bar]
theorem rest_send : bigSep ((swapRd (F := F) m).duties (sendCell c) 0 \ ∅) (fun u => (swapRd (F := F) m).payload (sendCell c) 0 u) = sendPay m c := by
  rw [Finset.sdiff_empty, duties_send, bigSep_singleton, payload_send]
theorem rest_recv : bigSep ((swapRd (F := F) m).duties (recvCell c) 0 \ ∅) (fun u => (swapRd (F := F) m).payload (recvCell c) 0 u) = recvPay m c := by
  rw [Finset.sdiff_empty, duties_recv, bigSep_singleton, payload_recv]

end Sched

/-! ## What each device owes at launch; the levels -/

/-- Device `c` owes its mate's receive cell one row's credit and its mate's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

omit [FloatOps F] in
/-- A wait on a staging semaphore or on the send semaphore is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its mate's receive credit only: a receive cell, above its barrier cell. -/
theorem mayWait_bar (c : Dev nD) : (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Exchange

end
-- ==== Proof.KernelIdealBody.lean ====
import proofs.«900930_g7700000000000931_dist_max_ax0_xy_m4096_n1024_v7x_xy2x2_f32_1_alg».proof.Proof.KernelIdealExchange

/-!
# One device's body of the exchange

The body of device `c`, stepped once at a symbolic device: it tells its column mate that slot 1 of its scratch may be
written, stores its own column maxima into slot 0, waits for its mate's word, copies slot 0 into the mate's slot 1, waits
until its own row has left and the mate's has landed, and writes the elementwise maximum of the two slots.
-/

noncomputable section

namespace Cert.KernelIdeal.Exchange

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two slots tile the scratch -/

omit [FloatOps F] in
theorem slots_disjoint : Disjoint (V0 : View sig .tc .vmem rc0.shape .f32).set (V1 : View sig .tc .vmem rc1.shape .f32).set := by
  show Disjoint ((View.whole cc0_scratch0).slice rc0).set ((View.whole cc0_scratch0).slice rc1).set
  rw [View.set_slice_whole, View.set_slice_whole]
  exact Rect.unit_disjoint 0 (Or.inl (by decide))

omit [FloatOps F] in
theorem slots_cover : (V0 : View sig .tc .vmem rc0.shape .f32).set ∪ (V1 : View sig .tc .vmem rc1.shape .f32).set = Finset.univ := by
  show ((View.whole cc0_scratch0).slice rc0).set ∪ ((View.whole cc0_scratch0).slice rc1).set = Finset.univ
  rw [View.set_slice_whole, View.set_slice_whole]
  ext i
  simp only [Finset.mem_union, Finset.mem_univ, iff_true, Rect.mem_set_unit]
  have h0 : (i 0).val < 2 := (i 0).isLt
  have h1 : (i 1).val < 1 := (i 1).isLt
  have h2 : (i 2).val < 1024 := (i 2).isLt
  by_cases h : (i 0).val = 0
  · left; intro a; fin_cases a
    · exact ⟨Nat.zero_le _, by show (i 0).val < 0 + 1; omega⟩
    · exact ⟨Nat.zero_le _, by show (i 1).val < 0 + 1; omega⟩
    · exact ⟨Nat.zero_le _, by show (i 2).val < 0 + 1024; omega⟩
  · right; intro a; fin_cases a
    · exact ⟨by show 1 ≤ (i 0).val; omega, by show (i 0).val < 1 + 1; omega⟩
    · exact ⟨Nat.zero_le _, by show (i 1).val < 0 + 1; omega⟩
    · exact ⟨Nat.zero_le _, by show (i 2).val < 0 + 1024; omega⟩

omit [FloatOps F] in
theorem univ_sdiff_slot1 : Finset.univ \ (V1 : View sig .tc .vmem rc1.shape .f32).set = (V0 : View sig .tc .vmem rc0.shape .f32).set := by
  rw [← slots_cover, Finset.union_sdiff_right]
  exact Finset.sdiff_eq_self_of_disjoint slots_disjoint

/-- The scratch held whole is its two slots held apart, and back. -/
theorem scr_split (c : Dev nD) (f : Buf (Elt F) ((c : Thread nD τ).loc cc0_scratch0)) :
    (((c : Thread nD τ).loc cc0_scratch0) ↦{fullShare} f : sProp 𝕄) ⊢ iprop(slot1Pts c f ∗ slot0Pts c f) := by
  unfold slot1Pts slot0Pts
  rw [← univ_sdiff_slot1]
  exact (BI.Region.is_split_subset (Finset.subset_univ _)).1

theorem scr_join (c : Dev nD) (f g : Buf (Elt F) ((c : Thread nD τ).loc cc0_scratch0)) :
    iprop(slot0Pts c f ∗ slot1Pts c g) ⊢ (iprop(∃ h, ((c : Thread nD τ).loc cc0_scratch0) ↦{fullShare} h) : sProp 𝕄) := by
  unfold slot1Pts slot0Pts
  have h : iprop((V0.loc (c : Thread nD τ) ↦[V0.set]{fullShare} f) ∗ (V1.loc (c : Thread nD τ) ↦[V1.set]{fullShare} g))
      ⊢ (V0.loc (c : Thread nD τ) ↦[V0.set ∪ V1.set]{fullShare} ((V1 : View sig .tc .vmem rc1.shape .f32).set.piecewise g f) : sProp 𝕄) :=
    BI.Region.is_join slots_disjoint
  rw [slots_cover] at h
  refine h.trans ?_
  iintro H; iexists _; iexact H

omit [FloatOps F] in
/-- A slot of the scratch is the row memref the copy names, and a whole buffer its whole memref: the same assertion, spelt through the memref's view. -/
theorem slot1_as_row (c : Dev nD) (f : Buf (Elt F) (V1.loc (c : Thread nD τ))) :
    slot1Pts c f ⊢ ((sl1 : Memref sig .tc .vmem S1x1024 .f32).view.loc (c : Thread nD τ) ↦[(sl1 : Memref sig .tc .vmem S1x1024 .f32).view.set]{fullShare} f : sProp 𝕄) := Entails.of_eq rfl
omit [FloatOps F] in
theorem slot0_as_row (c : Dev nD) (f : Buf (Elt F) (V0.loc (c : Thread nD τ))) :
    slot0Pts c f ⊢ ((sl0 : Memref sig .tc .vmem S1x1024 .f32).view.loc (c : Thread nD τ) ↦[(sl0 : Memref sig .tc .vmem S1x1024 .f32).view.set]{fullShare} f : sProp 𝕄) := Entails.of_eq rfl
omit [FloatOps F] in
theorem row_as_slot1 (c : Dev nD) (f : Buf (Elt F) (V1.loc (c : Thread nD τ))) :
    ((sl1 : Memref sig .tc .vmem S1x1024 .f32).view.loc (c : Thread nD τ) ↦[(sl1 : Memref sig .tc .vmem S1x1024 .f32).view.set]{fullShare} f : sProp 𝕄) ⊢ slot1Pts c f := Entails.of_eq rfl
omit [FloatOps F] in
theorem row_as_slot0 (c : Dev nD) (f : Buf (Elt F) (V0.loc (c : Thread nD τ))) :
    ((sl0 : Memref sig .tc .vmem S1x1024 .f32).view.loc (c : Thread nD τ) ↦[(sl0 : Memref sig .tc .vmem S1x1024 .f32).view.set]{fullShare} f : sProp 𝕄) ⊢ slot0Pts c f := Entails.of_eq rfl
omit [FloatOps F] in
theorem whole_as_view (c : Dev nD) (b : Ref sig .tc) (f : Buf (Elt F) ((c : Thread nD τ).loc b)) :
    (((c : Thread nD τ).loc b) ↦{fullShare} f : sProp 𝕄) ⊢ ((Memref.whole b : Memref sig .tc _ _ _).view.loc (c : Thread nD τ) ↦[Finset.univ]{fullShare} f) := Entails.of_eq rfl

omit [FloatOps F] in
theorem wholeview_as_view (c : Dev nD) (b : Ref sig .tc) (f : Buf (Elt F) ((c : Thread nD τ).loc b)) :
    (View.loc (c : Thread nD τ) (View.whole b) ↦[Finset.univ]{fullShare} f : sProp 𝕄) ⊢ ((Memref.whole b : Memref sig .tc _ _ _).view.loc (c : Thread nD τ) ↦[Finset.univ]{fullShare} f) := Entails.of_eq rfl
omit [FloatOps F] in
theorem view_as_whole (c : Dev nD) (b : Ref sig .tc) (f : Buf (Elt F) ((c : Thread nD τ).loc b)) :
    ((Memref.whole b : Memref sig .tc _ _ _).view.loc (c : Thread nD τ) ↦[Finset.univ]{fullShare} f : sProp 𝕄) ⊢ (((c : Thread nD τ).loc b) ↦{fullShare} f) := Entails.of_eq rfl

/-! ## What a copied row reads as -/

omit [FloatOps F] in
/-- Slot 1 after the row copy from a slot 0 reads what that slot 0 read. -/
theorem landed_read (c c' : Dev nD) (fd : Buf (Elt F) ((sl1 : Memref sig .tc .vmem S1x1024 .f32).view.loc (c' : Thread nD τ)))
    (fs : Buf (Elt F) ((sl0 : Memref sig .tc .vmem S1x1024 .f32).view.loc (c : Thread nD τ))) :
    V1.read (Elt F) ((sl1 : Memref sig .tc .vmem S1x1024 .f32).view.write (Elt F) fd ((sl0 : Memref sig .tc .vmem S1x1024 .f32).view.read (Elt F) fs) Finset.univ)
      = V0.read (Elt F) fs := by
  show V1.read (Elt F) ((V1.reshape S1x1024 _).write (Elt F) fd ((V0.reshape S1x1024 _).read (Elt F) fs) Finset.univ) = V0.read (Elt F) fs
  rw [View.write_reshape_univ, View.read_write_univ]
  funext x
  simp [View.read_apply]

/-! ## What the hand-overs of the swap say -/

omit [FloatOps F] in
theorem hz2 : (![0, 0] : Fin 2 → Nat) = fun _ => 0 := funext fun a => by fin_cases a <;> rfl

omit [FloatOps F] in
theorem read_x (f : (cc0_stg0_0 : Ref sig .tc).ty.Contents (Elt F)) :
    (xM : Memref sig .tc .vmem S4096x1024 .f32).view.readAt (Elt F) (Rect.unit (s := S4096x1024) ![0, 0] S4096x1024.size inb_S4096x1024_S4096x1024_0_0).toLoadRect f = f :=
  Memref.readAt_unit_zero (Elt F) cc0_stg0_0 hz2 _ f

/-- Slot 0 after the body's store reads the device's column maxima, whatever the scratch held. -/
theorem stored_read (c : Dev nD) (f0 : Buf (Elt F) (V0.loc (c : Thread nD τ))) :
    V0.read (Elt F) (V0.write (Elt F) f0 (k0_pay2 ((xM : Memref sig .tc .vmem S4096x1024 .f32).view.readAt (Elt F)
      (Rect.unit (s := S4096x1024) ![0, 0] S4096x1024.size inb_S4096x1024_S4096x1024_0_0).toLoadRect (xstg m c))) Finset.univ) = colmax m c := by
  rw [View.read_write_univ, read_x]; rfl

/-- The row a device sends is, on its departure, what its send cell's duty hands back: slot 0 holding the device's column maxima; -/
theorem send_pays (c : Dev nD) (fs : Buf (Elt F) (V0.loc (c : Thread nD τ))) (h : V0.read (Elt F) fs = colmax m c) :
    ((sl0 : Memref sig .tc .vmem S1x1024 .f32).view.loc (c : Thread nD τ) ↦[(sl0 : Memref sig .tc .vmem S1x1024 .f32).view.set]{fullShare} fs : sProp 𝕄)
      ⊢ (swapRd (F := F) m).payload (sendCell c) 0 () := by
  rw [payload_send]; unfold sendPay
  iintro H
  iexists fs
  isplitr; · ipureintro; exact h
  iapply (row_as_slot0 c fs); iexact H

/-- and, on its landing, what the mate's receive cell's duty hands the mate: the mate's slot 1 holding those maxima. -/
theorem land_pays (c : Dev nD) (fs : Buf (Elt F) (V0.loc (c : Thread nD τ))) (fd : Buf (Elt F) (V1.loc (peer c : Thread nD τ)))
    (h : V0.read (Elt F) fs = colmax m c) :
    ((sl1 : Memref sig .tc .vmem S1x1024 .f32).view.loc (peer c : Thread nD τ) ↦[(sl1 : Memref sig .tc .vmem S1x1024 .f32).view.set]{fullShare}
        ((sl1 : Memref sig .tc .vmem S1x1024 .f32).view.write (Elt F) fd ((sl0 : Memref sig .tc .vmem S1x1024 .f32).view.read (Elt F) fs) Finset.univ) : sProp 𝕄)
      ⊢ (swapRd (F := F) m).payload (recvCell (peer c)) 0 () := by
  rw [payload_recv]; unfold recvPay
  iintro H
  iexists _
  isplitr; · ipureintro; rw [landed_read c (peer c) fd fs, peer_peer]; exact h
  iapply (row_as_slot1 (peer c) _); iexact H

omit [FloatOps F] in
/-- The result's staging buffer written whole holds what was written. -/
theorem out_written (g w : (cc0_stg1_0 : Ref sig .tc).ty.Contents (Elt F)) :
    (oM : Memref sig .tc .vmem S1x1024 .f32).view.writes (Elt F) g
      [⟨Rect.unit (s := S1x1024) ![0, 0] S1x1024.size inb_S1x1024_S1x1024_0_0, w⟩] = w := by
  rw [View.writes_singleton]
  exact Memref.write_access_unit_zero_univ (Elt F) cc0_stg1_0 hz2 _ g w

/-! ## The proof data of the one-point pipeline -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- The kernel's result on device `c`: the elementwise maximum of its own column maxima and its mate's. -/
def outAt (c : Dev nD) : (cc0_stg1_0 : Ref sig .tc).ty.Contents (Elt F) := k0_pay1 (colmax m c) (colmax m (peer c))

/-- The cells' invariants device `c`'s body opens, under the names `K` the launch allocated them at: its own three, its
    mate's barrier cell (its signal) and its mate's receive cell (its copy). -/
def invs (K : Dev nD × Fin 3 → ℕ) (c : Dev nD) : sProp 𝕄 :=
  iprop(cellInv ER (swapRd m) (K (c, 0)) (barCell c) ∗ cellInv ER (swapRd m) (K (c, 1)) (sendCell c) ∗ cellInv ER (swapRd m) (K (c, 2)) (recvCell c)
    ∗ cellInv ER (swapRd m) (K (peer c, 0)) (barCell (peer c)) ∗ cellInv ER (swapRd m) (K (peer c, 2)) (recvCell (peer c)))

instance invs_persistent (K : Dev nD × Fin 3 → ℕ) (c : Dev nD) : BI.Persistent (invs m K c) := by unfold invs; infer_instance

/-- The tokens of the duties device `c` pays: its mate's barrier unit, its mate's landing, its own departure. -/
def payToks (c : Dev nD) : sProp 𝕄 := iprop(dutyTok ER (barCell (peer c)) 0 () ∗ dutyTok ER (recvCell (peer c)) 0 () ∗ dutyTok ER (sendCell c) 0 ())

/-- The swap's ghost state device `c` starts from. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What device `c`'s body starts from beside its scratch: the ghost state at some names, the credit for the unit and
    the row others owe it, and the level facts. -/
def start (c : Dev nD) : sProp 𝕄 := iprop((∃ K, ghost m K c) ∗ cred (tallyAt (barCell c) () 1) ∗ cred (tallyAt (recvCell c) () N) ∗ levAts L lv)

def wholeScr (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ wholeScr c)
/-- After the point: the scratch whole again, the two own cells closed at zero. -/
def Φ₁ (c : Dev nD) : sProp 𝕄 := iprop(wholeScr c ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ wholeScr c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The payload tables with the points-to spelt out, the mate's mate resolved. -/
theorem payload_bar_mate (c : Dev nD) (u : Unit) : (swapRd (F := F) m).payload (barCell (peer c)) 0 u
    = iprop((∃ f, ((sl1 : Memref sig .tc .vmem S1x1024 .f32).view.loc (c : Thread nD τ) ↦[(sl1 : Memref sig .tc .vmem S1x1024 .f32).view.set]{fullShare} f)) ∗ reached ER (recvCell c) 0) := by
  rw [payload_bar]; unfold barPay slot1Pts; rw [peer_peer]; rfl
theorem payload_bar_own (c : Dev nD) (u : Unit) : (swapRd (F := F) m).payload (barCell c) 0 u
    = iprop((∃ f, ((sl1 : Memref sig .tc .vmem S1x1024 .f32).view.loc (peer c : Thread nD τ) ↦[(sl1 : Memref sig .tc .vmem S1x1024 .f32).view.set]{fullShare} f)) ∗ reached ER (recvCell (peer c)) 0) := by
  rw [payload_bar]; unfold barPay slot1Pts; rfl
theorem payload_send_own (c : Dev nD) (u : Unit) : (swapRd (F := F) m).payload (sendCell c) 0 u
    = iprop(∃ f, ⌜V0.read (Elt F) f = colmax m c⌝ ∗ ((sl0 : Memref sig .tc .vmem S1x1024 .f32).view.loc (c : Thread nD τ) ↦[(sl0 : Memref sig .tc .vmem S1x1024 .f32).view.set]{fullShare} f)) := by
  rw [payload_send]; unfold sendPay slot0Pts; rfl
theorem payload_recv_own (c : Dev nD) (u : Unit) : (swapRd (F := F) m).payload (recvCell c) 0 u
    = iprop(∃ f, ⌜V1.read (Elt F) f = colmax m (peer c)⌝ ∗ ((sl1 : Memref sig .tc .vmem S1x1024 .f32).view.loc (c : Thread nD τ) ↦[(sl1 : Memref sig .tc .vmem S1x1024 .f32).view.set]{fullShare} f)) := by
  rw [payload_recv]; unfold recvPay slot1Pts; rfl
theorem payload_recv_mate (c : Dev nD) (u : Unit) : (swapRd (F := F) m).payload (recvCell (peer c)) 0 u
    = iprop(∃ f, ⌜V1.read (Elt F) f = colmax m c⌝ ∗ ((sl1 : Memref sig .tc .vmem S1x1024 .f32).view.loc (peer c : Thread nD τ) ↦[(sl1 : Memref sig .tc .vmem S1x1024 .f32).view.set]{fullShare} f)) := by
  rw [payload_recv]; unfold recvPay slot1Pts; rw [peer_peer]; rfl

attribute [local sl_rounds] duties_bar duties_send duties_recv amount_bar amount_send amount_recv expect_bar expect_send expect_recv
  payload_bar_own payload_send_own payload_recv_own
attribute [local sl_rounds high] payload_recv_mate payload_bar_mate
attribute [local sl_canon] dev1_eq dev2_eq

set_option maxHeartbeats 800000 in
/-- The body, symbolically executed from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  unfold bodyPre ghost invs payToks wholeScr
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  -- the scratch cut into its two slots
  ihave Hsp := (scr_split c f0) $$ Hscr
  icases Hsp with ⟨Hs1, Hs0⟩
  -- every buffer spelt through the memref the body names it by
  ihave Hs1 := (slot1_as_row c f0) $$ Hs1
  ihave Hs0 := (slot0_as_row c f0) $$ Hs0
  ihave Hx := (whole_as_view c cc0_stg0_0 (xstg m c)) $$ Hx
  ihave Hout := (whole_as_view c cc0_stg1_0 g1) $$ Hout
  have hmw : (levAts L lv : sProp 𝕄) ⊢ MayWait (c : Thread nD τ) (.reg barS) () (tallyAt (recvCell (peer c)) () N) := mayWait_bar c
  sl_exec (disch := simp only [dev1_eq, dev2_eq])
  sl_unfold_words
  -- the row copy to the mate: slot 0 leaves holding the column maxima, the mate's slot 1 lands holding them
  iapply (Rounds.wp_send_pointsTo 𝒱₀ ER (swapRd m) (c : Thread nD τ) none (c' := (peer c : Thread nD τ))
      (src := sl0) (dst := sl1) (q := fullShare) (fd := HatB_pay1_v)
      (κ₁ := K (c, 1)) (κ₂ := K (peer c, 2)) (r₁ := 0) (r₂ := 0) (d₁ := ()) (d₂ := ())
      (by rw [duties_send]; exact Finset.mem_singleton_self _) (by rw [duties_recv]; exact Finset.mem_singleton_self _)
      () () N rfl (amount_send m c ()) (amount_recv m (peer c) ()) 0 (by rw [zero_add])
      (send_pays m c _ (stored_read m c f0)) (land_pays m c _ HatB_pay1_v (stored_read m c f0))) $$ [Hs0 HatB_pay1 HO HtS HtVP]
  · isplitr; · iexact HIsnd
    isplitr; · iexact HIrcvP
    isplitl [Hs0]; · iexact Hs0
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  simp only [Prog.lift, Prog.bind_op, Prog.bind_ret, Prog.pure_eq_ret]
  -- the wait on the send cell: slot 0 back, holding the column maxima
  iapply (Rounds.wp_wait_rest_token 𝒱₀ ER (swapRd m) (c : Thread nD τ) none (κ := K (c, 1))
      (wpE_waitDma2_eq 𝒱₀ (c : Thread nD τ) none Set.univ) (Set.mem_univ _) () (O := 0) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp0 := (Entails.of_eq (rest_send m c)) $$ Hpay
  unfold sendPay
  icases Hp0 with ⟨%fa, %hfa, Hs0⟩
  -- the wait on the receive cell: slot 1, holding the mate's column maxima
  iapply (Rounds.wp_wait_rest_token 𝒱₀ ER (swapRd m) (c : Thread nD τ) none (κ := K (c, 2))
      (wpE_waitDma2_eq 𝒱₀ (c : Thread nD τ) none Set.univ) (Set.mem_univ _) () (O := 0) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp1 := (Entails.of_eq (rest_recv m c)) $$ Hpay
  unfold recvPay
  icases Hp1 with ⟨%fb, %hfb, Hs1⟩
  -- the two own cells close: their counters at zero are the device's again
  imod (Rounds.cell_close ER (swapRd m) (Set.mem_univ (K (c, 1))) (fun h => h) (R := 0 + 1) (duties_later m (sendCell c))) $$ [HatS] with HzS
  · isplitr; · iexact HIsnd
    iexact HatS
  imod (Rounds.cell_close ER (swapRd m) (Set.mem_univ (K (c, 2))) (fun h => h) (R := 0 + 1) (duties_later m (recvCell c))) $$ [HatV] with HzV
  · isplitr; · iexact HIrcv
    iexact HatV
  -- the two slots read, their maximum stored
  ihave Hs0 := (slot0_as_row c fa) $$ Hs0
  ihave Hs1 := (slot1_as_row c fb) $$ Hs1
  ihave Hx := (wholeview_as_view c cc0_stg0_0 (xstg m c)) $$ Hx
  ihave Hout := (wholeview_as_view c cc0_stg1_0 g1) $$ Hout
  sl_exec
  sl_unfold_words
  rw [out_written, wp_ret]; imodintro
  iapply Hk
  unfold bodyPost Φ₁ Dat.owesAt Pipeline.owesWithin
  rw [show (dats m 0 c).owed t₀.succ = 0 from rfl]
  ihave Hs0 := (row_as_slot0 c fa) $$ Hs0
  ihave Hs1 := (row_as_slot1 c fb) $$ Hs1
  ihave Hscr := (scr_join c fa fb) $$ [Hs0 Hs1]
  · isplitl [Hs0] <;> iassumption
  ihave Hx := (view_as_whole c cc0_stg0_0 (xstg m c)) $$ Hx
  ihave Hout := (view_as_whole c cc0_stg1_0 _) $$ Hout
  isplitl [Hscr HzS HzV]
  · isplitl [Hscr]; · unfold wholeScr; iexact Hscr
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

end Cert.KernelIdeal.Exchange

end
-- ==== Proof.KernelIdealLaunch.lean ====
import proofs.«900930_g7700000000000931_dist_max_ax0_xy_m4096_n1024_v7x_xy2x2_f32_1_alg».proof.Proof.KernelIdealBody

/-!
# The launch of the exchange on the four devices

Every device's body being proved, the launch theorem turns the four bodies into a run of the program: each device's
barrier cell (the runtime's semaphore, not scoped to the kernel) and its two own cells are allocated for all devices at once,
the tokens of a device's cells are dealt to the device that pays them (its column mate, or itself for the departure),
and the units and the row a device is owed at launch are what its mate owes it.
The run's post names every device's two arrays at the end: `x` unchanged, the result the elementwise maximum of the
device's and its mate's column maxima.
-/

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def swapCells : Finset (GSem nD τ sig) := Finset.univ.map ⟨kcell, kcell_injective⟩

/-- A device's own cells' duty tokens as minted: one per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def swapToks : Finset (GSem nD τ sig × ℕ × Unit) := Finset.univ.map ⟨tokOf, tokOf_injective⟩

def u₀ : UU :=
  (initOf (Pipeline.cells cfgs cellOf_inj) (Pipeline.launchToks cfgs cellOf_inj), initOf swapCells swapToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (swapRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_swap : BI.own (ER (initOf swapCells swapToks)) ⊢ (|==> bigSep Finset.univ (G m) : sProp 𝕄) := by
  have hX (Φ : GSem nD τ sig → sProp 𝕄) : bigSep swapCells Φ = bigSep Finset.univ fun c : Dev nD => bigSep Finset.univ fun k : Fin 3 => Φ (kcell (c, k)) := by
    unfold swapCells; rw [bigSep_map, bigSep_univ_prod]; rfl
  have hT : bigSep swapToks (fun x => (dutyTok ER x.1 x.2.1 x.2.2 : sProp 𝕄)) = bigSep Finset.univ fun c : Dev nD => toks c := by
    unfold swapToks; rw [bigSep_map, bigSep_univ_prod]
    exact bigSep_congr fun c _ => by unfold toks; rw [bigSep_fin3]; rfl
  iintro HX
  imod (Rounds.fund ER (swapRd m) swapCells swapToks) $$ HX with ⟨Hst, Hr, Hat, Htok⟩
  imodintro
  ihave Hst' := (Entails.of_eq (hX fun g => roundState ER (swapRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (swapRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (swapRd m) (kcell (c, k)) 0)
      ⊢ (|={Set.univ}=> bigSep Finset.univ fun k => iprop(∃ κ : ℕ, cellInv ER (swapRd m) κ (kcell (c, k))) : sProp 𝕄) from by
        rw [← bigSep_sep']
        exact (bigSep_mono fun k _ => (Rounds.body_intro ER (swapRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (swapRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (swapRd m) (K ck) (kcell ck) : sProp 𝕄)) ⊢ cellInv ER (swapRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs payToks
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each mesh column: a barrier's and a receive cell's token go to the mate, the send cell's stays. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv mates (fun c : Dev nD => (dutyTok ER (barCell c) 0 () : sProp 𝕄)),
    bigSep_univ_equiv mates (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (swapRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (swapRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (swapRd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s mate. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ wholeScr
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ wholeScr
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, from any memory with zero counters: every weakly fair execution of the program —
    the two devices of each mesh column handshaking on the barrier semaphore, then swapping their rows — terminates,
    and every final state has each device's arrays at the computed contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_swap m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Exchange.run_main' depends on axioms: [propext, Classical.choice, Quot.sound] -/
#guard_msgs in #print axioms run_main

end Cert.KernelIdeal.Exchange

end
-- ==== Proof.KernelIdealResult.lean ====
import proofs.«900930_g7700000000000931_dist_max_ax0_xy_m4096_n1024_v7x_xy2x2_f32_1_alg».proof.Proof.KernelIdealLaunch
import Idealize.ShloMosaic.Lib.Pipeline.Value

/-!
# The arrays at the end of the exchange

The launch's run names each device's two arrays at the end through the pipeline's write-backs. Read out: `x` is never
written, and the result array, written back whole at the one grid point, holds the elementwise maximum of the device's
column maxima and its mate's.
-/

noncomputable section

namespace Cert.KernelIdeal.Exchange

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

omit [FloatOps F] in
/-- The argument window's one block starts at the array's origin, -/
theorem origin_x : (fun a => win0_0.index t₀ a * main_arg0.ty.shape.size a) = fun _ => 0 := funext fun a => by fin_cases a <;> decide

/-- so the argument's staging buffer holds the device's whole block of the argument. -/
theorem xstg_eq (c : Dev nD) : xstg m c = m ((c : Thread nD τ).loc main_arg0) :=
  Memref.read_access_unit_zero (Elt F) main_arg0 origin_x (fun a => by rw [congrFun origin_x a]; simp) _

/-- The argument array is an input of the pipeline: it ends as it began. -/
theorem final_x (c : Dev nD) : finalA m c (0 : Fin 2) = m ((c : Thread nD τ).loc main_arg0) :=
  (dats (F := F) m 0 c).arrAt_in (0 : Fin 2) rfl _

omit [FloatOps F] in
/-- The result window's one block starts at the array's origin. -/
theorem origin : (fun a => win0_1.index t₀ a * main_v1.ty.shape.size a) = fun _ => 0 := funext fun a => by fin_cases a <;> decide

/-- The result array is written back whole at the one point: it ends holding what the body left in its staging buffer. -/
theorem final_out (c : Dev nD) : finalA m c (1 : Fin 2) = outAt m c := by
  unfold finalA
  refine (dats m 0 c).arrAt_eq_of_cover (1 : Fin 2) (outAt m c) (fun t _ => ?_) (fun i => ⟨t₀, rfl, ?_⟩)
  · rw [fin_N t]
    show (cfg0.win 1).cut (grid0.coords t₀) ((dats m 0 c).after 1 t₀) = _
    exact (Memref.read_access_unit_zero (Elt F) main_v1 origin (fun a => by rw [congrFun origin a]; simp) (outAt m c)).symm
  · show i ∈ ((View.whole main_v1).slice (win0_1.rect t₀)).set
    rw [View.set_slice_whole]
    exact View.mem_set_unit_zero origin _ i

/-- The run with every array named: on each device the result is the elementwise maximum of the two devices' column
    maxima, and the argument is unchanged. -/
theorem run_vals : θ_run defs (onTc (τ := τ) (main (F := F))) ⟨m, fun _ => 0, ρ⟩ fun r => ∀ c : Dev nD,
      r.2.mem ((c : Thread nD τ).loc main_v1) = outAt m c
      ∧ r.2.mem ((c : Thread nD τ).loc main_arg0) = m ((c : Thread nD τ).loc main_arg0) :=
  (θ_run defs _ _).mono (fun _ h c => ⟨(h c (1 : Fin 2)).trans (final_out m c), (h c (0 : Fin 2)).trans (final_x m c)⟩)
    (run_main m ρ)

end Cert.KernelIdeal.Exchange

end
-- ==== Proof.LibFoldMax.lean ====
import Mathlib.Data.Finset.Fold
import Mathlib.Data.Fintype.Basic
import Mathlib.Data.Fin.Basic

/-!
# A maximum over a range is the larger of the maxima over its two parts

General facts about `Finset.fold max` over `Fin`, in any linear order: no program is imported.
-/

namespace Cert.FoldMax

/-- From any start value `s`, the running maximum of `f` over the `a + b` indices of `Fin (a + b)` is the larger of
    the running maximum over the first `a` indices and the running maximum over the last `b`, each from `s`: the two
    sides have the same upper bounds. -/
theorem fold_max_append {α : Type} [LinearOrder α] (a b : ℕ) (s : α) (f : Fin (a + b) → α) :
    (Finset.univ : Finset (Fin (a + b))).fold max s f
      = max ((Finset.univ : Finset (Fin a)).fold max s fun r => f (Fin.castAdd b r))
            ((Finset.univ : Finset (Fin b)).fold max s fun r => f (Fin.natAdd a r)) := by
  refine eq_of_forall_ge_iff fun z => ?_
  rw [Finset.fold_max_le, max_le_iff, Finset.fold_max_le, Finset.fold_max_le]
  constructor
  · rintro ⟨hs, h⟩
    exact ⟨⟨hs, fun r _ => h _ (Finset.mem_univ _)⟩, hs, fun r _ => h _ (Finset.mem_univ _)⟩
  · rintro ⟨⟨hs, h1⟩, -, h2⟩
    refine ⟨hs, fun R _ => ?_⟩
    exact Fin.addCases (motive := fun R => f R ≤ z) (fun i => h1 i (Finset.mem_univ _)) (fun i => h2 i (Finset.mem_univ _)) R

end Cert.FoldMax
-- ==== Proof.ColumnMaxima.lean ====
import proofs.«900930_g7700000000000931_dist_max_ax0_xy_m4096_n1024_v7x_xy2x2_f32_1_alg».proof.Proof.KernelIdealExchange
import proofs.«900930_g7700000000000931_dist_max_ax0_xy_m4096_n1024_v7x_xy2x2_f32_1_alg».proof.Proof.Gen.ReferenceIdeal.Read
import proofs.«900930_g7700000000000931_dist_max_ax0_xy_m4096_n1024_v7x_xy2x2_f32_1_alg».proof.Proof.LibFoldMax
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Layout

/-!
# Column maxima over the extended reals

Over the extended reals both programs take running maxima from one start value `s` (the value of the word the two reductions
start from; it is never evaluated). For a block `x` of 4096 rows the kernel's stored row is, at column `l`, the running maximum
`M x l` of `x r l` over the 4096 rows `r`; its result is `max (M x l) (M y l)` for its own block `x` and its mate's block `y`.
The reference's result at column `L` is the running maximum of `X R L` over all 8192 rows. Device `(i, j)` holds rows
`4096 i + r` and columns `1024 j + l` of `X`, its mate the other 4096 rows of the same columns, so the two agree: a running
maximum over 8192 rows is the larger of those over the first and the last 4096 (`Cert.FoldMax.fold_max_append`), in either order.
-/

-- the row axes have 4096 and 8192 coordinates
set_option maxRecDepth 16384

noncomputable section

namespace Cert.ColumnMaxima

open Idealize.ShloMosaic Idealize.ShloMosaic.ValueIdx

/-- The start value of both reductions, as an extended real. -/
abbrev s₀ : Ideal .f32 := FloatOps.ofBits (F := Ideal) .f32 0xFF800000#32

/-- The running maximum of column `l` over the 4096 rows of a block. -/
def M (x : Vec Ideal Cert.KernelIdeal.S4096x1024 .f32) (l : Fin 1024) : Ideal .f32 :=
  (Finset.univ : Finset (Fin 4096)).fold max s₀ fun r => x (ix2 r l)

/-- The block's reduction over its rows, at column `l`, is that running maximum. -/
theorem rows_max (z : FVec Ideal Cert.KernelIdeal.S4096x1024 .f32) (h : Cert.KernelIdeal.S4096x1024.Reduces [0] Cert.KernelIdeal.S1024)
    (hφ : FKind.Formats .f32) (hacc : (0xFF800000#32 : BitVec 32) = FKind.maximumf.neutral .f32 hφ) (l : Fin 1024) :
    multiReduction .maximumf [0] Cert.KernelIdeal.S1024 z 0xFF800000#32 h hφ hacc (ix1 l) = M z l :=
  (Ideal.multiReduction_maximumf_single z 0xFF800000#32 h hφ hacc (ix1 l)).trans (by
    unfold M; congr 1; funext r
    show z (h.lift (ix1 l) r) = z (ix2 r l)
    congr 1; funext a; apply Fin.ext
    match a with
    | ⟨0, _⟩ => rfl
    | ⟨1, _⟩ => rfl)

/-- The kernel's result at column `l`, from its own block `x` and its mate's block `y`. -/
theorem kernel_at (x y : Vec Ideal Cert.KernelIdeal.S4096x1024 .f32) (u : Fin 1) (l : Fin 1024) :
    Cert.KernelIdeal.Gen.k0_pay1 (F := Ideal) (Cert.KernelIdeal.Gen.k0_pay2 x) (Cert.KernelIdeal.Gen.k0_pay2 y) (ix2 u l)
      = max (M x l) (M y l) := by
  have hrow : ∀ z : Vec Ideal Cert.KernelIdeal.S4096x1024 .f32,
      shapeCast Cert.KernelIdeal.S1x1024 (Cert.KernelIdeal.Gen.k0_pay2 (F := Ideal) z) Cert.KernelIdeal.Gen.shapeCasts_S1x1x1024_S1x1024 (ix2 u l) = M z l := by
    intro z
    unfold Cert.KernelIdeal.Gen.k0_pay2
    dsimp only
    rw [shapeCast_shapeCast, shapeCast_a_1a_apply, shapeCast_self]
    exact rows_max z _ _ _ l
  unfold Cert.KernelIdeal.Gen.k0_pay1
  rw [maximumf_apply, hrow, hrow]

/-- The host's reduction over all the rows, at column `L`. -/
theorem all_rows_max (X : FVec Ideal Cert.ReferenceIdeal.S8192x2048 .f32) (init : Cert.ReferenceIdeal.S_.Idx → Ideal .f32)
    (h' : Cert.ReferenceIdeal.S8192x2048.ReducesTo [0] Cert.ReferenceIdeal.S2048) (h : Cert.ReferenceIdeal.S8192x2048.Reduces [0] Cert.ReferenceIdeal.S2048)
    (hu : 0 < Cert.ReferenceIdeal.S_.numel) (L : Fin 2048) :
    Host.reduce FloatOps.maximumf X init h' hu (ix1 L)
      = (Finset.univ : Finset (Fin 8192)).fold max (init (Shape.Idx.first hu)) fun R => X (ix2 R L) :=
  (Host.reduce_eq_fold_single FloatOps.maximumf X init h' h hu (ix1 L)).trans (by
    congr 1; funext R
    show X (h.lift (ix1 L) R) = X (ix2 R L)
    congr 1; funext a; apply Fin.ext
    match a with
    | ⟨0, _⟩ => rfl
    | ⟨1, _⟩ => rfl)

/-- The reference's result at column `L`: the running maximum over all the rows. -/
theorem reference_at (X : (⟨Cert.ReferenceIdeal.S8192x2048, .f32⟩ : BufTy).Contents (Elt Ideal)) (u : Fin 1) (L : Fin 2048) :
    Cert.ReferenceIdeal.Read.val_main_v1 (F := Ideal) X (ix2 u L)
      = (Finset.univ : Finset (Fin 8192)).fold max s₀ fun R => X (ix2 R L) := by
  rw [Cert.ReferenceIdeal.Read.val_main_v1_apply]
  unfold Cert.ReferenceIdeal.Read.val_main_v0
  have e : Cert.ReferenceIdeal.Read.idx_main_v1 (ix2 u L) = ix1 L := funext fun a => match a with | ⟨0, _⟩ => rfl
  rw [e]
  exact all_rows_max X (Cert.ReferenceIdeal.Read.val_main_cst (F := Ideal)) Cert.ReferenceIdeal.Gen.reducesTo_S8192x2048_S2048_d0 (by decide) Cert.ReferenceIdeal.Gen.h_S_ L

/-! ## Through the mesh blocks -/

open Cert.KernelIdeal.Exchange (peer)

/-- Device `c`'s block of the whole argument `X`: rows `4096 (c / 2) + r`, columns `1024 (c % 2) + l`. -/
abbrev blk (X : FVec Ideal Cert.ReferenceIdeal.S8192x2048 .f32) (c : Fin 4) : FVec Ideal Cert.KernelIdeal.S4096x1024 .f32 :=
  Layout.blockN ⟨2, ![4096, 1024]⟩ ⟨2, ![8192, 2048]⟩ (Layout.meshBlock [2, 2] ![[0], [1]] c) X

theorem blk_apply (X : FVec Ideal Cert.ReferenceIdeal.S8192x2048 .f32) (c : Fin 4) (r : Fin 4096) (l : Fin 1024) :
    blk X c (ix2 r l) = X (ix2 (n0 := 8192) (n1 := 2048) ⟨(c.val / 2) * 4096 + r.val, by have := c.isLt; omega⟩ ⟨(c.val % 2) * 1024 + l.val, by omega⟩) := by
  show X _ = X _
  congr 1; funext a; apply Fin.ext
  have h0 : Layout.meshLin [2, 2] c.val [0] = c.val / 2 := by revert c; decide
  have h1 : Layout.meshLin [2, 2] c.val [1] = c.val % 2 := by revert c; decide
  match a with
  | ⟨0, _⟩ => show Layout.meshLin [2, 2] c.val [0] * 4096 + r.val = _; rw [h0]
  | ⟨1, _⟩ => show Layout.meshLin [2, 2] c.val [1] * 1024 + l.val = _; rw [h1]

/-- The larger of the running maxima of column `L` over the first and over the last 4096 rows is the running maximum over all 8192. -/
theorem join (X : FVec Ideal Cert.ReferenceIdeal.S8192x2048 .f32) (x y : FVec Ideal Cert.KernelIdeal.S4096x1024 .f32) (l : Fin 1024) (L : Fin 2048)
    (hx : ∀ r : Fin 4096, x (ix2 r l) = X (ix2 (n0 := 8192) (n1 := 2048) ⟨r.val, by omega⟩ L))
    (hy : ∀ r : Fin 4096, y (ix2 r l) = X (ix2 (n0 := 8192) (n1 := 2048) ⟨4096 + r.val, by omega⟩ L)) :
    max (M x l) (M y l) = (Finset.univ : Finset (Fin 8192)).fold max s₀ fun R => X (ix2 R L) := by
  refine Eq.trans ?_ (Cert.FoldMax.fold_max_append 4096 4096 s₀ (fun R : Fin (4096 + 4096) => X (ix2 (n0 := 8192) (n1 := 2048) ⟨R.val, R.isLt⟩ L))).symm
  unfold M
  congr 1
  · congr 1; funext r; exact hx r
  · congr 1; funext r; exact hy r

/-- For every device: the larger of the running maxima over its own block and over its mate's is the running maximum over all the rows of its columns. -/
theorem both_blocks (X : FVec Ideal Cert.ReferenceIdeal.S8192x2048 .f32) (c : Fin 4) (l : Fin 1024) :
    max (M (blk X c) l) (M (blk X (peer c)) l)
      = (Finset.univ : Finset (Fin 8192)).fold max s₀ fun R => X (ix2 (n1 := 2048) R ⟨(c.val % 2) * 1024 + l.val, by omega⟩) := by
  have hcol : (peer c).val % 2 = c.val % 2 := by revert c; decide
  have hrow : (c.val / 2 = 0 ∧ (peer c).val / 2 = 1) ∨ (c.val / 2 = 1 ∧ (peer c).val / 2 = 0) := by revert c; decide
  rcases hrow with ⟨h, hp⟩ | ⟨h, hp⟩
  · refine join X _ _ l _ (fun r => (blk_apply X c r l).trans (congrArg X ?_)) (fun r => (blk_apply X (peer c) r l).trans (congrArg X ?_))
    · funext a; apply Fin.ext
      match a with
      | ⟨0, _⟩ => show c.val / 2 * 4096 + r.val = r.val; omega
      | ⟨1, _⟩ => rfl
    · funext a; apply Fin.ext
      match a with
      | ⟨0, _⟩ => show (peer c).val / 2 * 4096 + r.val = 4096 + r.val; omega
      | ⟨1, _⟩ => show (peer c).val % 2 * 1024 + l.val = c.val % 2 * 1024 + l.val; rw [hcol]
  · rw [max_comm]
    refine join X _ _ l _ (fun r => (blk_apply X (peer c) r l).trans (congrArg X ?_)) (fun r => (blk_apply X c r l).trans (congrArg X ?_))
    · funext a; apply Fin.ext
      match a with
      | ⟨0, _⟩ => show (peer c).val / 2 * 4096 + r.val = r.val; omega
      | ⟨1, _⟩ => show (peer c).val % 2 * 1024 + l.val = c.val % 2 * 1024 + l.val; rw [hcol]
    · funext a; apply Fin.ext
      match a with
      | ⟨0, _⟩ => show c.val / 2 * 4096 + r.val = 4096 + r.val; omega
      | ⟨1, _⟩ => rfl

/-- The kernel's result on device `c`, from the blocks of `X` it and its mate hold, is device `c`'s block of the reference's result on `X`. -/
theorem result_is_block (X : FVec Ideal Cert.ReferenceIdeal.S8192x2048 .f32) (c : Fin 4) :
    Cert.KernelIdeal.Gen.k0_pay1 (F := Ideal) (Cert.KernelIdeal.Gen.k0_pay2 (F := Ideal) (blk X c)) (Cert.KernelIdeal.Gen.k0_pay2 (F := Ideal) (blk X (peer c)))
      = Layout.blockN ⟨2, ![1, 1024]⟩ ⟨2, ![1, 2048]⟩ (Layout.meshBlock [2, 2] ![[], [1]] c) (Cert.ReferenceIdeal.Read.val_main_v1 (F := Ideal) X) := by
  funext j
  obtain ⟨u, l, rfl⟩ : ∃ (u : Fin 1) (l : Fin 1024), j = ix2 u l := ⟨j 0, j 1, eq_ix2 j⟩
  rw [kernel_at, both_blocks, Layout.blockN_apply]
  have hL : Layout.meshLin [2, 2] c.val [1] = c.val % 2 := by revert c; decide
  have e : Layout.TilesN.idx (S := ⟨2, ![1, 1024]⟩) (T := ⟨2, ![1, 2048]⟩) (by decide) (Layout.meshBlock [2, 2] ![[], [1]] c) (ix2 u l)
      = ix2 (n0 := 1) (n1 := 2048) u ⟨(c.val % 2) * 1024 + l.val, by omega⟩ := by
    funext a; apply Fin.ext
    match a with
    | ⟨0, _⟩ => show Layout.meshLin [2, 2] c.val [] * 1 + u.val = u.val; show 0 * 1 + u.val = u.val; omega
    | ⟨1, _⟩ => show Layout.meshLin [2, 2] c.val [1] * 1024 + l.val = _; rw [hL]
  rw [e, reference_at]

end Cert.ColumnMaxima

end
-- ==== Proof.lean ====
/-
  The column maxima of a [8192, 2048] array on a 2 × 2 mesh, against `jnp.max(x, axis=0, keepdims=True)` on one device.

  Device `(i, j)` holds rows `[4096 i, 4096 i + 4096)` and columns `[1024 j, 1024 j + 1024)` of `x`. It reduces its block over
  the rows into slot 0 of a two-slot scratch, swaps that row with its column mate `(1 - i, j)` (the mate's row lands in
  slot 1), and writes the elementwise maximum of the two slots: the maximum of each of its columns over all 8192 rows,
  which is its block of the reference's result.

  * The swap's protocol (a unit on the barrier semaphore from the mate, then one row copy with a send and a receive
    credit) and the levels that order its waits: Proof/KernelIdealExchange.lean.
  * One device's body, at a symbolic device, from the invariant "slot 0 holds my column maxima; my mate may write slot 1"
    to "slot 1 holds my mate's column maxima": Proof/KernelIdealBody.lean.
  * The four devices launched together, and every array named at the end: Proof/KernelIdealLaunch.lean,
    Proof/KernelIdealResult.lean. These four modules are written once for any float instance; the word-level program's
    are the same text over its own names.
  * Over the extended reals a running maximum over 8192 rows is the larger of the running maxima over the first and the
    last 4096, in either order (Proof/LibFoldMax.lean), and the blocks of the two mates are those two halves of the same
    columns (Proof/ColumnMaxima.lean). Nothing here needs the inputs to be finite: `max` is a lattice operation on the
    extended reals, and the start value of the two reductions is the same word, never evaluated.
  * The ideal pass rewrote nothing, so `preserves` is `True`.
-/
import proofs.«900930_g7700000000000931_dist_max_ax0_xy_m4096_n1024_v7x_xy2x2_f32_1_alg».proof.Defs
import proofs.«900930_g7700000000000931_dist_max_ax0_xy_m4096_n1024_v7x_xy2x2_f32_1_alg».proof.Proof.Gen.Kernel
import proofs.«900930_g7700000000000931_dist_max_ax0_xy_m4096_n1024_v7x_xy2x2_f32_1_alg».proof.Proof.Gen.Kernel.Skeleton
import proofs.«900930_g7700000000000931_dist_max_ax0_xy_m4096_n1024_v7x_xy2x2_f32_1_alg».proof.Proof.Gen.Kernel.Launch
import proofs.«900930_g7700000000000931_dist_max_ax0_xy_m4096_n1024_v7x_xy2x2_f32_1_alg».proof.Proof.Gen.Kernel.Points
import proofs.«900930_g7700000000000931_dist_max_ax0_xy_m4096_n1024_v7x_xy2x2_f32_1_alg».proof.Proof.Gen.Kernel.Frame
import proofs.«900930_g7700000000000931_dist_max_ax0_xy_m4096_n1024_v7x_xy2x2_f32_1_alg».proof.Proof.Gen.KernelIdeal
import proofs.«900930_g7700000000000931_dist_max_ax0_xy_m4096_n1024_v7x_xy2x2_f32_1_alg».proof.Proof.Gen.KernelIdeal.Skeleton
import proofs.«900930_g7700000000000931_dist_max_ax0_xy_m4096_n1024_v7x_xy2x2_f32_1_alg».proof.Proof.Gen.KernelIdeal.Launch
import proofs.«900930_g7700000000000931_dist_max_ax0_xy_m4096_n1024_v7x_xy2x2_f32_1_alg».proof.Proof.Gen.KernelIdeal.Points
import proofs.«900930_g7700000000000931_dist_max_ax0_xy_m4096_n1024_v7x_xy2x2_f32_1_alg».proof.Proof.Gen.KernelIdeal.Frame
import proofs.«900930_g7700000000000931_dist_max_ax0_xy_m4096_n1024_v7x_xy2x2_f32_1_alg».proof.Proof.Gen.ReferenceIdeal
import proofs.«900930_g7700000000000931_dist_max_ax0_xy_m4096_n1024_v7x_xy2x2_f32_1_alg».proof.Proof.Gen.ReferenceIdeal.Run
import proofs.«900930_g7700000000000931_dist_max_ax0_xy_m4096_n1024_v7x_xy2x2_f32_1_alg».proof.Proof.Gen.ReferenceIdeal.Read
import proofs.«900930_g7700000000000931_dist_max_ax0_xy_m4096_n1024_v7x_xy2x2_f32_1_alg».proof.Proof.Gen.Pre_finite_inputs_Kernel
import proofs.«900930_g7700000000000931_dist_max_ax0_xy_m4096_n1024_v7x_xy2x2_f32_1_alg».proof.Proof.Gen.Pre_finite_inputs_ReferenceIdeal
import proofs.«900930_g7700000000000931_dist_max_ax0_xy_m4096_n1024_v7x_xy2x2_f32_1_alg».proof.Proof.KernelResult
import proofs.«900930_g7700000000000931_dist_max_ax0_xy_m4096_n1024_v7x_xy2x2_f32_1_alg».proof.Proof.KernelIdealResult
import proofs.«900930_g7700000000000931_dist_max_ax0_xy_m4096_n1024_v7x_xy2x2_f32_1_alg».proof.Proof.ColumnMaxima
import Idealize.ShloMosaic.Adequacy
import Idealize.ShloMosaic.Init

noncomputable section

namespace Cert.Proof

open Idealize.ShloMosaic Idealize.ShloMosaic.TcCoe Idealize.SL.Sem

namespace Claims

/-- The word-level program runs and leaves its argument as it was: its run with the result's value dropped. -/
theorem frame_p : Cert.frame_Kernel := fun m ρ _ =>
  (θ_run Cert.Kernel.defs _ _).mono (fun _ h c => (h c).2) (Cert.Kernel.Exchange.run_vals (F := Bits) m ρ)

/-- The same run read over the extended reals. -/
theorem frame_pi : Cert.frame_KernelIdeal := fun m ρ _ =>
  (θ_run Cert.KernelIdeal.defs _ _).mono (fun _ h c => (h c).2) (Cert.KernelIdeal.Exchange.run_vals (F := Ideal) m ρ)

/-- The reference is three host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each device's result is its block of the reference's: from the device's own block `x_c` of `X` and its mate's, the
    elementwise maximum of the two blocks' column maxima is the column maxima of `X` on the device's columns. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdeal.Exchange.run_vals (F := Ideal) m ρ)
    unfold Cert.KernelIdeal.Exchange.outAt Cert.KernelIdeal.Exchange.colmax
    rw [Cert.KernelIdeal.Exchange.xstg_eq, Cert.KernelIdeal.Exchange.xstg_eq, hagree c, hagree (Cert.KernelIdeal.Exchange.peer c)]
    exact Cert.ColumnMaxima.result_is_block _ c
  · refine (θ_run Cert.ReferenceIdeal.defs _ _).mono (fun _ h => ⟨(h 0).1.trans ?_, (h 0).2⟩)
      (Cert.ReferenceIdeal.Value.run (F := Ideal) m' ρ')
    exact Cert.ReferenceIdeal.Read.val_main_v1_eq _

end Claims

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_p, Claims.frame_pi, Claims.frame_ri, trivial, Claims.algebraic⟩

end Cert.Proof

end
